-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x640000 : Shape := ⟨2, ![2, 640000]⟩
abbrev S128x256 : Shape := ⟨2, ![128, 256]⟩
abbrev S128 : Shape := ⟨1, ![128]⟩
abbrev S128x128 : Shape := ⟨2, ![128, 128]⟩
abbrev S64x128 : Shape := ⟨2, ![64, 128]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg8 : FVec F S128 .f32) (main_arg9 : FVec F S128x128 .f32) (main_arg10 : FVec F S64x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  main_v48

def fn_part1 {F : FTy → Type} [FloatOps F] (main_arg5 : FVec F S128 .f32) (main_arg6 : FVec F S128x128 .f32) (main_arg7 : FVec F S128x128 .f32) (main_arg8 : FVec F S128 .f32) (main_arg9 : FVec F S128x128 .f32) (main_arg10 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S10000x256 .f32) (main_arg1 : IVec S2x640000 32) (main_arg2 : FVec F S128x256 .f32) (main_arg3 : FVec F S128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S64x128 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S10000x256 : Shape := ⟨2, ![10000, 256]⟩
abbrev S2x640000 : Shape := ⟨2, ![2, 640000]⟩
abbrev S128x256 : Shape := ⟨2, ![128, 256]⟩
abbrev S128 : Shape := ⟨1, ![128]⟩
abbrev S128x128 : Shape := ⟨2, ![128, 128]⟩
abbrev S64x128 : Shape := ⟨2, ![64, 128]⟩
abbrev S1x640000 : Shape := ⟨2, ![1, 640000]⟩
abbrev S640000 : Shape := ⟨1, ![640000]⟩
abbrev S_ : Shape := ⟨0, ![]⟩
abbrev S10000 : Shape := ⟨1, ![10000]⟩
abbrev S640000x1 : Shape := ⟨2, ![640000, 1]⟩
abbrev S256x128 : Shape := ⟨2, ![256, 128]⟩
abbrev S1x128 : Shape := ⟨2, ![1, 128]⟩
abbrev S10000x128 : Shape := ⟨2, ![10000, 128]⟩
abbrev S1000x256 : Shape := ⟨2, ![1000, 256]⟩
abbrev S1000x128 : Shape := ⟨2, ![1000, 128]⟩
abbrev S640000x128 : Shape := ⟨2, ![640000, 128]⟩
abbrev S10000x1 : Shape := ⟨2, ![10000, 1]⟩
abbrev S128x64 : Shape := ⟨2, ![128, 64]⟩
abbrev S10000x64 : Shape := ⟨2, ![10000, 64]⟩
abbrev S1000x64 : Shape := ⟨2, ![1000, 64]⟩

abbrev nBuf : Space → Nat
  | .hbm => 72
  | .vmem => 29
  | .smem => 0
  | _ => 0

abbrev bufTy : (tb : Table) → Fin (tcTables nBuf tb) → BufTy
  | .hbm, ⟨0, _⟩ => ⟨S10000x256, .f32⟩
  | .hbm, ⟨1, _⟩ => ⟨S2x640000, .i32⟩
  | .hbm, ⟨2, _⟩ => ⟨S128x256, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S64x128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .f32⟩
  | .hbm, ⟨16, _⟩ => ⟨S640000, .f32⟩
  | .hbm, ⟨17, _⟩ => ⟨S_, .f32⟩
  | .hbm, ⟨18, _⟩ => ⟨S10000, .f32⟩
  | .hbm, ⟨19, _⟩ => ⟨S640000x1, .i32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S256x128, .f32⟩
  | .hbm, ⟨28, _⟩ => ⟨S1x128, .f32⟩
  | .hbm, ⟨29, _⟩ => ⟨S10000x128, .f32⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000x128, .f32⟩
  | .hbm, ⟨39, _⟩ => ⟨S_, .f32⟩
  | .hbm, ⟨40, _⟩ => ⟨S10000x128, .f32⟩
  | .hbm, ⟨41, _⟩ => ⟨S640000x1, .i32⟩
  | .hbm, ⟨42, _⟩ => ⟨S10000x128, .f32⟩
  | .hbm, ⟨43, _⟩ => ⟨S10000x1, .f32⟩
  | .hbm, ⟨44, _⟩ => ⟨S10000x128, .f32⟩
  | .hbm, ⟨45, _⟩ => ⟨S10000x128, .f32⟩
  | .hbm, ⟨46, _⟩ => ⟨S128x128, .f32⟩
  | .hbm, ⟨47, _⟩ => ⟨S1x128, .f32⟩
  | .hbm, ⟨48, _⟩ => ⟨S128x128, .f32⟩
  | .hbm, ⟨49, _⟩ => ⟨S10000x128, .f32⟩
  | .hbm, ⟨50, _⟩ => ⟨S_, .i32⟩
  | .hbm, ⟨51, _⟩ => ⟨S640000, .i32⟩
  | .hbm, ⟨52, _⟩ => ⟨S640000, .i1⟩
  | .hbm, ⟨53, _⟩ => ⟨S_, .i32⟩
  | .hbm, ⟨54, _⟩ => ⟨S640000, .i32⟩
  | .hbm, ⟨55, _⟩ => ⟨S640000, .i32⟩
  | .hbm, ⟨56, _⟩ => ⟨S640000, .i32⟩
  | .hbm, ⟨57, _⟩ => ⟨S640000x1, .i32⟩
  | .hbm, ⟨58, _⟩ => ⟨S640000x128, .f32⟩
  | .hbm, ⟨59, _⟩ => ⟨S_, .f32⟩
  | .hbm, ⟨60, _⟩ => ⟨S10000x128, .f32⟩
  | .hbm, ⟨61, _⟩ => ⟨S640000x1, .i32⟩
  | .hbm, ⟨62, _⟩ => ⟨S10000x128, .f32⟩
  | .hbm, ⟨63, _⟩ => ⟨S10000x1, .f32⟩
  | .hbm, ⟨64, _⟩ => ⟨S10000x128, .f32⟩
  | .hbm, ⟨65, _⟩ => ⟨S10000x128, .f32⟩
  | .hbm, ⟨66, _⟩ => ⟨S128x128, .f32⟩
  | .hbm, ⟨67, _⟩ => ⟨S1x128, .f32⟩
  | .hbm, ⟨68, _⟩ => ⟨S128x128, .f32⟩
  | .hbm, ⟨69, _⟩ => ⟨S10000x128, .f32⟩
  | .hbm, ⟨70, _⟩ => ⟨S128x64, .f32⟩
  | .hbm, ⟨71, _⟩ => ⟨S10000x64, .f32⟩
  | .local _ .vmem, ⟨0, _⟩ => ⟨S1000x256, .f32⟩
  | .local _ .vmem, ⟨1, _⟩ => ⟨S1000x256, .f32⟩
  | .local _ .vmem, ⟨2, _⟩ => ⟨S256x128, .f32⟩
  | .local _ .vmem, ⟨3, _⟩ => ⟨S1x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1000x128, .f32⟩
  | .local _ .vmem, ⟨23, _⟩ => ⟨S1000x128, .f32⟩
  | .local _ .vmem, ⟨24, _⟩ => ⟨S1000x128, .f32⟩
  | .local _ .vmem, ⟨25, _⟩ => ⟨S1000x128, .f32⟩
  | .local _ .vmem, ⟨26, _⟩ => ⟨S128x64, .f32⟩
  | .local _ .vmem, ⟨27, _⟩ => ⟨S1000x64, .f32⟩
  | .local _ .vmem, ⟨28, _⟩ => ⟨S1000x64, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  transposes_S128x256_S256x128_1_0 : S128x256.Transposes [1, 0] S256x128
  shapeCasts_S128_S1x128 : S128.ShapeCasts S1x128
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  bcast_S_S10000x128 : S_.BroadcastsInDim S10000x128 (![] : Fin 0 → Fin S10000x128.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  transposes_S128x128_S128x128_1_0 : S128x128.Transposes [1, 0] S128x128
  shapeCasts_S1000x128_S1000x128 : S1000x128.ShapeCasts S1000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S64x128_S128x64_1_0 : S64x128.Transposes [1, 0] S128x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1000x64_S1000x64_0_0 : ∀ a, (![0, 0] : Fin 2 → Nat) a + S1000x64.size a ≤ S1000x64.size a
  h_S1000x64 : 0 < S1000x64.numel
  scatter_S10000_S640000x1_S640000_n_0_0_1_wf : ScatterDims.WF S10000 S640000x1 S640000 [] [0] [0] 1
  dot_S1000x256_S256x128_S1000x128_1_0_0_1_n_n_wf : DotDims.WF S1000x256 S256x128 S1000x128 [1] [0] [0] [1] [] []
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S1000x128_S128x128_S1000x128_1_0_0_1_n_n_wf : DotDims.WF S1000x128 S128x128 S1000x128 [1] [0] [0] [1] [] []
  dot_S1000x128_S128x64_S1000x64_1_0_0_1_n_n_wf : DotDims.WF S1000x128 S128x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S10000x128.size a
  hwx0_3 : ∀ i : grid0.Coords, EltTy.bits .f32 = 32 ∨ (Rect.block (s := S10000x128) S1000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S10000x128.size a
  hwx1_0 : ∀ i : grid1.Coords, EltTy.bits .f32 = 32 ∨ (Rect.block (s := S10000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S10000x128.size a
  hwx1_1 : ∀ i : grid1.Coords, EltTy.bits .f32 = 32 ∨ (Rect.block (s := S10000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S10000x128.size a
  hwx1_5 : ∀ i : grid1.Coords, EltTy.bits .f32 = 32 ∨ (Rect.block (s := S10000x128) S1000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S10000x128.size a
  hwx2_0 : ∀ i : grid2.Coords, EltTy.bits .f32 = 32 ∨ (Rect.block (s := S10000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S10000x128.size a
  hwx2_1 : ∀ i : grid2.Coords, EltTy.bits .f32 = 32 ∨ (Rect.block (s := S10000x128) S1000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x128.size a ≤ S10000x128.size a
  hwx2_5 : ∀ i : grid2.Coords, EltTy.bits .f32 = 32 ∨ (Rect.block (s := S10000x128) S1000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S10000x128.size a
  hwx3_0 : ∀ i : grid3.Coords, EltTy.bits .f32 = 32 ∨ (Rect.block (s := S10000x128) S1000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x64.size a ≤ S10000x64.size a
  hwx3_2 : ∀ i : grid3.Coords, EltTy.bits .f32 = 32 ∨ (Rect.block (s := S10000x64) S1000x64.size (cc3_transform_2 i) (hinb3_2 i)).WholeWords (EltTy.packing .f32)

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S1000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v48) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S1000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x256 : Shape := ⟨2, ![10000, 256]⟩
abbrev S2x640000 : Shape := ⟨2, ![2, 640000]⟩
abbrev S128x256 : Shape := ⟨2, ![128, 256]⟩
abbrev S128 : Shape := ⟨1, ![128]⟩
abbrev S128x128 : Shape := ⟨2, ![128, 128]⟩
abbrev S64x128 : Shape := ⟨2, ![64, 128]⟩
abbrev S1x640000 : Shape := ⟨2, ![1, 640000]⟩
abbrev S640000 : Shape := ⟨1, ![640000]⟩
abbrev S256x128 : Shape := ⟨2, ![256, 128]⟩
abbrev S10000x128 : Shape := ⟨2, ![10000, 128]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S128x64 : Shape := ⟨2, ![128, 64]⟩
abbrev S10000x64 : Shape := ⟨2, ![10000, 64]⟩

abbrev nBuf : Space → Nat
  | .hbm => 94
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x640000, .i32⟩
  | .hbm, ⟨2, _⟩ => ⟨S128x256, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S64x128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S256x128, .f32⟩
  | .hbm, ⟨16, _⟩ => ⟨S10000x128, .f32⟩
  | .hbm, ⟨17, _⟩ => ⟨S1x128, .f32⟩
  | .hbm, ⟨18, _⟩ => ⟨S10000x128, .f32⟩
  | .hbm, ⟨19, _⟩ => ⟨S10000x128, .f32⟩
  | .hbm, ⟨20, _⟩ => ⟨S_, .f32⟩
  | .hbm, ⟨21, _⟩ => ⟨S10000x128, .f32⟩
  | .hbm, ⟨22, _⟩ => ⟨S10000x128, .f32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S640000x128, .f32⟩
  | .hbm, ⟨32, _⟩ => ⟨S_, .f32⟩
  | .hbm, ⟨33, _⟩ => ⟨S10000x128, .f32⟩
  | .hbm, ⟨34, _⟩ => ⟨S640000x1, .i32⟩
  | .hbm, ⟨35, _⟩ => ⟨S10000x128, .f32⟩
  | .hbm, ⟨36, _⟩ => ⟨S_, .f32⟩
  | .hbm, ⟨37, _⟩ => ⟨S640000, .f32⟩
  | .hbm, ⟨38, _⟩ => ⟨S_, .f32⟩
  | .hbm, ⟨39, _⟩ => ⟨S10000, .f32⟩
  | .hbm, ⟨40, _⟩ => ⟨S640000x1, .i32⟩
  | .hbm, ⟨41, _⟩ => ⟨S10000, .f32⟩
  | .hbm, ⟨42, _⟩ => ⟨S_, .f32⟩
  | .hbm, ⟨43, _⟩ => ⟨S10000, .f32⟩
  | .hbm, ⟨44, _⟩ => ⟨S10000, .f32⟩
  | .hbm, ⟨45, _⟩ => ⟨S10000x1, .f32⟩
  | .hbm, ⟨46, _⟩ => ⟨S10000x128, .f32⟩
  | .hbm, ⟨47, _⟩ => ⟨S10000x128, .f32⟩
  | .hbm, ⟨48, _⟩ => ⟨S128x128, .f32⟩
  | .hbm, ⟨49, _⟩ => ⟨S10000x128, .f32⟩
  | .hbm, ⟨50, _⟩ => ⟨S1x128, .f32⟩
  | .hbm, ⟨51, _⟩ => ⟨S10000x128, .f32⟩
  | .hbm, ⟨52, _⟩ => ⟨S10000x128, .f32⟩
  | .hbm, ⟨53, _⟩ => ⟨S128x128, .f32⟩
  | .hbm, ⟨54, _⟩ => ⟨S10000x128, .f32⟩
  | .hbm, ⟨55, _⟩ => ⟨S10000x128, .f32⟩
  | .hbm, ⟨56, _⟩ => ⟨S_, .i32⟩
  | .hbm, ⟨57, _⟩ => ⟨S640000, .i32⟩
  | .hbm, ⟨58, _⟩ => ⟨S640000, .i1⟩
  | .hbm, ⟨59, _⟩ => ⟨S_, .i32⟩
  | .hbm, ⟨60, _⟩ => ⟨S640000, .i32⟩
  | .hbm, ⟨61, _⟩ => ⟨S640000, .i32⟩
  | .hbm, ⟨62, _⟩ => ⟨S640000, .i32⟩
  | .hbm, ⟨63, _⟩ => ⟨S640000x1, .i32⟩
  | .hbm, ⟨64, _⟩ => ⟨S640000x128, .f32⟩
  | .hbm, ⟨65, _⟩ => ⟨S_, .f32⟩
  | .hbm, ⟨66, _⟩ => ⟨S10000x128, .f32⟩
  | .hbm, ⟨67, _⟩ => ⟨S640000x1, .i32⟩
  | .hbm, ⟨68, _⟩ => ⟨S10000x128, .f32⟩
  | .hbm, ⟨69, _⟩ => ⟨S_, .f32⟩
  | .hbm, ⟨70, _⟩ => ⟨S640000, .f32⟩
  | .hbm, ⟨71, _⟩ => ⟨S_, .f32⟩
  | .hbm, ⟨72, _⟩ => ⟨S10000, .f32⟩
  | .hbm, ⟨73, _⟩ => ⟨S640000x1, .i32⟩
  | .hbm, ⟨74, _⟩ => ⟨S10000, .f32⟩
  | .hbm, ⟨75, _⟩ => ⟨S_, .f32⟩
  | .hbm, ⟨76, _⟩ => ⟨S10000, .f32⟩
  | .hbm, ⟨77, _⟩ => ⟨S10000, .f32⟩
  | .hbm, ⟨78, _⟩ => ⟨S10000x1, .f32⟩
  | .hbm, ⟨79, _⟩ => ⟨S10000x128, .f32⟩
  | .hbm, ⟨80, _⟩ => ⟨S10000x128, .f32⟩
  | .hbm, ⟨81, _⟩ => ⟨S128x128, .f32⟩
  | .hbm, ⟨82, _⟩ => ⟨S10000x128, .f32⟩
  | .hbm, ⟨83, _⟩ => ⟨S1x128, .f32⟩
  | .hbm, ⟨84, _⟩ => ⟨S10000x128, .f32⟩
  | .hbm, ⟨85, _⟩ => ⟨S10000x128, .f32⟩
  | .hbm, ⟨86, _⟩ => ⟨S128x128, .f32⟩
  | .hbm, ⟨87, _⟩ => ⟨S10000x128, .f32⟩
  | .hbm, ⟨88, _⟩ => ⟨S10000x128, .f32⟩
  | .hbm, ⟨89, _⟩ => ⟨S_, .f32⟩
  | .hbm, ⟨90, _⟩ => ⟨S10000x128, .f32⟩
  | .hbm, ⟨91, _⟩ => ⟨S10000x128, .f32⟩
  | .hbm, ⟨92, _⟩ => ⟨S128x64, .f32⟩
  | .hbm, ⟨93, _⟩ => ⟨S10000x64, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call0_cst : Ref sig .tc := ⟨.hbm, 20, rfl⟩
abbrev main_call0_v0 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_4 : Ref sig .tc := ⟨.hbm, 56, rfl⟩
abbrev main_v37 : Ref sig .tc := ⟨.hbm, 57, rfl⟩
abbrev main_v38 : Ref sig .tc := ⟨.hbm, 58, rfl⟩
abbrev main_c_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_call1_cst : Ref sig .tc := ⟨.hbm, 89, rfl⟩
abbrev main_call1_v0 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  transposes_S128x256_S256x128_1_0 : S128x256.Transposes [1, 0] S256x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  transposes_S128x128_S128x128_1_0 : S128x128.Transposes [1, 0] S128x128
  transposes_S64x128_S128x64_1_0 : S64x128.Transposes [1, 0] S128x64
  dot_S10000x256_S256x128_S10000x128_1_0_0_1_n_n_wf : DotDims.WF S10000x256 S256x128 S10000x128 [1] [0] [0] [1] [] []
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.Spec.lean ====
/-
  The four dense stages of the two-layer mean-aggregation network, as whole-array functions on the extended reals,
  and the two laws that join the kernel's arithmetic to the reference's.

  A stage's entry (r, j) depends on row r of its inputs only: a product entry is `∑ k, a (r, k) · w (k, j)`; the
  input projection adds a bias row and clamps at zero; a combine stage adds the products of the aggregated mean and of
  the node's own features with two weight matrices, then the bias (and the last one clamps at zero); the classifier
  is a bare product.

  The laws. (1) Multiplying by the reciprocal `1 / max d 1` is dividing by `max d 1`: the divisor is at least one, so
  it is not zero, and a quotient by a non-zero extended real is the product with its inverse. (2) Adding the bias
  after both products or between them is the same sum: addition of extended reals is commutative and associative.
-/
import Idealize.ShloMosaic.Lib.ValueIdx
import Idealize.ShloMosaic.PureOps.Ideal.Laws

noncomputable section

namespace Cert.Spec

open Idealize.ShloMosaic Idealize.ShloMosaic.ValueIdx

/-- An M × N array of extended reals. -/
abbrev Mat (M N : ℕ) : Type := (⟨2, ![M, N]⟩ : Shape).Idx → EReal

/-- Entry (r, j) of the product of an M × K by a K × N array. -/
def prod {M K N : ℕ} (a : Mat M K) (w : Mat K N) (r : Fin M) (j : Fin N) : EReal :=
  ∑ k : Fin K, a (ix2 r k) * w (ix2 k j)

/-- The input projection: product, bias row, clamp at zero. -/
def project {M K N : ℕ} (x : Mat M K) (w : Mat K N) (b : Mat 1 N) : Mat M N :=
  fun i => max (prod x w (i 0) (i 1) + b (ix2 0 (i 1))) 0

/-- A combine stage: the mean's product plus the node's own product, then the bias row. -/
def combine {M K N : ℕ} (mean h : Mat M K) (wl : Mat K N) (b : Mat 1 N) (wr : Mat K N) : Mat M N :=
  fun i => prod mean wl (i 0) (i 1) + prod h wr (i 0) (i 1) + b (ix2 0 (i 1))

/-- A combine stage clamped at zero. -/
def combineClamp {M K N : ℕ} (mean h : Mat M K) (wl : Mat K N) (b : Mat 1 N) (wr : Mat K N) : Mat M N :=
  fun i => max (combine mean h wl b wr i) 0

/-- The classifier: a bare product. -/
def classify {M K N : ℕ} (h : Mat M K) (w : Mat K N) : Mat M N :=
  fun i => prod h w (i 0) (i 1)

theorem project_apply {M K N : ℕ} (x : Mat M K) (w : Mat K N) (b : Mat 1 N) (r : Fin M) (j : Fin N) :
    project x w b (ix2 r j) = max (prod x w r j + b (ix2 0 j)) 0 := rfl

theorem combine_apply {M K N : ℕ} (mean h : Mat M K) (wl : Mat K N) (b : Mat 1 N) (wr : Mat K N) (r : Fin M) (j : Fin N) :
    combine mean h wl b wr (ix2 r j) = prod mean wl r j + prod h wr r j + b (ix2 0 j) := rfl

theorem combineClamp_apply {M K N : ℕ} (mean h : Mat M K) (wl : Mat K N) (b : Mat 1 N) (wr : Mat K N) (r : Fin M) (j : Fin N) :
    combineClamp mean h wl b wr (ix2 r j) = max (prod mean wl r j + prod h wr r j + b (ix2 0 j)) 0 := rfl

theorem classify_apply {M K N : ℕ} (h : Mat M K) (w : Mat K N) (r : Fin M) (j : Fin N) :
    classify h w (ix2 r j) = prod h w r j := rfl

/-- A product entry depends on the left operand's row only. -/
theorem prod_congr {M M' K N : ℕ} {a : Mat M K} {a' : Mat M' K} (w : Mat K N) {r : Fin M} {r' : Fin M'}
    (e : ∀ k, a (ix2 r k) = a' (ix2 r' k)) (j : Fin N) : prod a w r j = prod a' w r' j := by
  unfold prod
  exact Finset.sum_congr rfl fun k _ => by rw [e k]

/-- The single-precision word of one denotes the real number one. -/
theorem ofBits_one_f32 : Ideal.ofBits .f32 0x3F800000#32 = 1 := by
  have h : Ideal.ofBits .f32 0x3F800000#32 = (((8388608 : ℝ) * ((2 : ℝ) ^ 23)⁻¹ : ℝ) : EReal) := by
    simp [Ideal.ofBits, Ideal.ieee]
  rw [h, show ((8388608 : ℝ) * ((2 : ℝ) ^ 23)⁻¹ : ℝ) = 1 by norm_num]
  rfl

/-- Law (1): the product with the reciprocal of `max d 1` is the quotient by `max d 1`. -/
theorem mul_recip_eq_div (a d : EReal) : a * Ideal.div 1 (max d 1) = Ideal.div a (max d 1) := by
  have h : max d 1 ≠ 0 := ne_of_gt (lt_of_lt_of_le zero_lt_one (le_max_right d 1))
  unfold Ideal.div
  rw [if_neg h, if_neg h, one_mul]

/-- Law (2): the bias added last, or between the two products. -/
theorem add_bias_comm (p q b : EReal) : p + q + b = p + b + q := add_right_comm p q b

end Cert.Spec

end
-- ==== Proof.Region0.lean ====
/-
  The input projection's region: what its result array holds after all ten grid points.

  Point `t` stages rows `1000 t … 1000 t + 999` of the node features, the whole transposed weight matrix and the whole bias
  row; the body stores `max (x · w + b) 0` of that tile, and the pipeline writes it back to the same rows of the result.
  Entry (p, q) of a tile depends on row p of the tile only, so the tile at point `t` is rows `1000 t …` of ONE whole-array
  function, `Spec.project`, of the three arrays as the region finds them; the ten row blocks tile the result, so the
  result ends holding that function.
-/
import proofs.«129019_j63771674411489_1_alg».proof.Proof.KernelIdealFrame
import proofs.«129019_j63771674411489_1_alg».proof.Proof.LibDense
import proofs.«129019_j63771674411489_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q) of a tile: the clamped product of row p with column q plus the bias. The
    changes of float format are the identity on the extended reals. -/
theorem pay_apply (x0 : Vec Ideal S1000x256 .f32) (x1 : Vec Ideal S256x128 .f32) (x2 : Vec Ideal S1x128 .f32)
    (p : Fin 1000) (q : Fin 128) :
    k0_pay1 (F := Ideal) x0 x1 x2 (ix2 p q) = max (prod x0 x1 p q + x2 (ix2 0 q)) 0 := by
  unfold k0_pay1
  refine (Cert.LibDense.kernel_layer_apply dot_S1000x256_S256x128_S1000x128_1_0_0_1_n_n rfl none _ _ _ _ p q
    (fun k => x0 (ix2 p k)) (fun k => rfl)).trans ?_
  unfold Cert.LibDense.dense prod
  simp only [shapeCast_self]
  rfl

/-- The printed index maps over the grid: the features' and the result's windows move down one row block per point, the
    weights' and the bias' stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the features' tile at point `t` is row `1000 t + p` of the features. -/
theorem blk_x (c : Dev nD) (t : Fin cfg0.N) (p : Fin 1000) (k : Fin 256) (r : Fin 10000) (hr : r.val = 1000 * t.val + p.val) :
    (iblk0 V c 0 t : Vec Ideal S1000x256 .f32) (ix2 p k) = (V c main_arg0 : S10000x256.Idx → EReal) (ix2 r k) := by
  obtain ⟨e0, e1, -⟩ := idx_facts t
  unfold iblk0
  rw [View.read_apply]
  show V c main_arg0 _ = V c main_arg0 _
  congr 1
  funext a; apply Fin.ext
  match a with
  | ⟨0, _⟩ => show win0_0.index t (0 : Fin 2) * 1000 + 1 * p.val = r.val; rw [e0, hr]; omega
  | ⟨1, _⟩ => show win0_0.index t (1 : Fin 2) * 256 + 1 * k.val = k.val; rw [e1]; omega

/-- The weights' tile is the whole weight array. -/
theorem blk_w (c : Dev nD) (t : Fin cfg0.N) (k : Fin 256) (q : Fin 128) :
    (iblk0 V c 1 t : Vec Ideal S256x128 .f32) (ix2 k q) = (V c main_v12 : S256x128.Idx → EReal) (ix2 k q) := by
  obtain ⟨-, -, e0, e1, -⟩ := idx_facts t
  unfold iblk0
  rw [View.read_apply]
  show V c main_v12 _ = V c main_v12 _
  congr 1
  funext a; apply Fin.ext
  match a with
  | ⟨0, _⟩ => show win0_1.index t (0 : Fin 2) * 256 + 1 * k.val = k.val; rw [e0]; omega
  | ⟨1, _⟩ => show win0_1.index t (1 : Fin 2) * 128 + 1 * q.val = q.val; rw [e1]; omega

/-- The bias' tile is the whole bias row. -/
theorem blk_b (c : Dev nD) (t : Fin cfg0.N) (q : Fin 128) :
    (iblk0 V c 2 t : Vec Ideal S1x128 .f32) (ix2 0 q) = (V c main_v13 : S1x128.Idx → EReal) (ix2 0 q) := by
  obtain ⟨-, -, -, -, e0, e1, -⟩ := idx_facts t
  unfold iblk0
  rw [View.read_apply]
  show V c main_v13 _ = V c main_v13 _
  congr 1
  funext a; apply Fin.ext
  match a with
  | ⟨0, _⟩ => show win0_2.index t (0 : Fin 2) * 1 + 1 * 0 = 0; rw [e0]
  | ⟨1, _⟩ => show win0_2.index t (1 : Fin 2) * 128 + 1 * q.val = q.val; rw [e1]; omega

/-- What point `t` writes back is rows `1000 t …` of the projection of the arrays as the region finds them. -/
theorem flushed_eq (c : Dev nD) (t : Fin cfg0.N) :
    (dat0 V c).flushed 3 t
      = ((cfg0.win 3).blk t).view.read (Elt Ideal) (project (V c main_arg0) (V c main_v12) (V c main_v13)) := by
  show (cfg0.win 3).cut (grid0.coords t) ((dat0 V c).after 3 t) = _
  rw [after0_3]
  unfold out0_3
  rw [View.canon_unit_zero hz]
  simp only [View.ld_unit_zero (S := S1000x256) hz, View.ld_unit_zero (S := S256x128) hz, View.ld_unit_zero (S := S1x128) hz]
  funext y
  obtain ⟨p, q, rfl⟩ : ∃ (p : Fin 1000) (q : Fin 128), y = ix2 p q := ⟨y 0, y 1, eq_ix2 y⟩
  rw [View.read_apply]
  obtain ⟨-, -, -, -, -, -, e0, e1⟩ := idx_facts t
  have hN : cfg0.N = 10 := N_0
  have hlt : 1000 * t.val + p.val < 10000 := by have := t.isLt; have := p.isLt; omega
  have he : ((cfg0.win 3).blk t).view.emb (ix2 p q) = ix2 (⟨1000 * t.val + p.val, hlt⟩ : Fin 10000) q := by
    funext a; apply Fin.ext
    match a with
    | ⟨0, _⟩ => show win0_3.index t (0 : Fin 2) * 1000 + 1 * p.val = 1000 * t.val + p.val; rw [e0]; omega
    | ⟨1, _⟩ => show win0_3.index t (1 : Fin 2) * 128 + 1 * q.val = q.val; rw [e1]; omega
  rw [he, project_apply]
  refine (pay_apply (iblk0 V c 0 t) (iblk0 V c 1 t) (iblk0 V c 2 t) p q).trans ?_
  have e1' : prod (iblk0 V c 0 t : Vec Ideal S1000x256 .f32) (iblk0 V c 1 t : Vec Ideal S256x128 .f32) p q
      = prod (V c main_arg0 : S10000x256.Idx → EReal) (V c main_v12 : S256x128.Idx → EReal) ⟨1000 * t.val + p.val, hlt⟩ q := by
    unfold prod
    refine Finset.sum_congr rfl fun k _ => ?_
    exact congrArg₂ (· * ·) (blk_x V c t p k _ rfl) (blk_w V c t k q)
  exact congrArg (fun z => max z 0) (congrArg₂ (· + ·) e1' (blk_b V c t q))

/-- An index of the result is in point `t`'s block iff each coordinate is in the block's range on its axis. -/
theorem mem_blk (t : Fin cfg0.N) (i : S10000x128.Idx) :
    i ∈ ((cfg0.win 3).blk t).view.set ↔ ∀ a : Fin 2, win0_3.index t a * S1000x128.size a ≤ (i a).val
      ∧ (i a).val < win0_3.index t a * S1000x128.size a + S1000x128.size a := by
  show i ∈ ((View.whole main_v14).slice (win0_3.rect t)).set ↔ _
  rw [View.set_slice_whole, Rect.mem_set_unit]
  exact Iff.rfl

/-- THE REGION'S VALUE: after the run the result array is the projection of the arrays as the region finds them. Row
    `r` lies in the block of point `r / 1000`. -/
theorem value (c : Dev nD) :
    (dat0 V c).arrAt 3 cfg0.N = project (V c main_arg0) (V c main_v12) (V c main_v13) :=
  (dat0 V c).arrAt_eq_of_cover 3 (project (V c main_arg0) (V c main_v12) (V c main_v13)) (fun t _ => flushed_eq V c t) fun i => by
    have hN : cfg0.N = 10 := N_0
    have hi0 : (i 0).val < 10000 := (i 0).isLt
    have hi1 : (i 1).val < 128 := (i 1).isLt
    let t : Fin cfg0.N := ⟨(i 0).val / 1000, by rw [hN]; omega⟩
    obtain ⟨-, -, -, -, -, -, e0, e1⟩ := idx_facts t
    refine ⟨t, flush0_3 t, ?_⟩
    rw [mem_blk]
    intro a
    match a with
    | ⟨0, _⟩ =>
      show win0_3.index t (0 : Fin 2) * 1000 ≤ (i 0).val ∧ (i 0).val < win0_3.index t (0 : Fin 2) * 1000 + 1000
      rw [e0]; show (i 0).val / 1000 * 1000 ≤ (i 0).val ∧ (i 0).val < (i 0).val / 1000 * 1000 + 1000; omega
    | ⟨1, _⟩ =>
      show win0_3.index t (1 : Fin 2) * 128 ≤ (i 1).val ∧ (i 1).val < win0_3.index t (1 : Fin 2) * 128 + 128
      rw [e1]; omega

end Cert.KernelIdeal.Region0

end
-- ==== Proof.Region1.lean ====
/-
  The region of the first combine stage: what its result array holds after all ten grid points.

  Point `t` stages rows `1000 t … 1000 t + 999` of the aggregated mean and of the node features, and the two whole weight
  matrices and the whole bias row; the body stores, per entry, the mean's row times one weight column plus the node's row
  times the other weight column plus the bias. An entry depends on its own row of the two row-tiled inputs
  only, so each tile is a row block of ONE whole-array function, `Spec.combine`, of the five arrays as the region finds them;
  the ten row blocks tile the result.
-/
import proofs.«129019_j63771674411489_1_alg».proof.Proof.KernelIdealFrame
import proofs.«129019_j63771674411489_1_alg».proof.Proof.LibDense
import proofs.«129019_j63771674411489_1_alg».proof.Proof.Spec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q) of a tile. The changes of float format are the identity on the extended reals, and
    a product accumulated into a zero array is the plain sum over the contracted axis. -/
theorem pay_apply (x0 x1 : Vec Ideal S1000x128 .f32) (wl wr : Vec Ideal S128x128 .f32) (b : Vec Ideal S1x128 .f32)
    (p : Fin 1000) (q : Fin 128) :
    k1_pay1 (F := Ideal) x0 x1 wl wr b (ix2 p q) = prod x0 wl p q + prod x1 wr p q + b (ix2 0 q) := by
  unfold k1_pay1
  show FloatOps.matmul (DotDims.plain 1000 128 128) none _ _ (constant ⟨2, ![1000, 128]⟩ .f32 0x00000000#32) (ix2 p q)
      + FloatOps.matmul (DotDims.plain 1000 128 128) none _ _ (constant ⟨2, ![1000, 128]⟩ .f32 0x00000000#32) (ix2 p q)
      + broadcastTo ⟨2, ![1000, 128]⟩ _ broadcasts_S1x128_S1000x128 (ix2 p q) = _
  rw [Cert.LibDense.matmul_plain_zero_apply, Cert.LibDense.matmul_plain_zero_apply, broadcastTo_1b_ab_apply]
  unfold prod
  simp only [shapeCast_self]
  rfl

/-- The printed index maps over the grid: the two row-tiled inputs and the result move down one row block per point, the
    weights and the bias stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the mean's tile at point `t` is row `1000 t + p` of the mean. -/
theorem blk_mean (c : Dev nD) (t : Fin cfg1.N) (p : Fin 1000) (k : Fin 128) (r : Fin 10000) (hr : r.val = 1000 * t.val + p.val) :
    (iblk1 V c 0 t : Vec Ideal S1000x128 .f32) (ix2 p k) = (V c main_v27 : S10000x128.Idx → EReal) (ix2 r k) := by
  obtain ⟨e0, e1, -⟩ := idx_facts t
  unfold iblk1
  rw [View.read_apply]
  show V c main_v27 _ = V c main_v27 _
  congr 1
  funext a; apply Fin.ext
  match a with
  | ⟨0, _⟩ => show win1_0.index t (0 : Fin 2) * 1000 + 1 * p.val = r.val; rw [e0, hr]; omega
  | ⟨1, _⟩ => show win1_0.index t (1 : Fin 2) * 128 + 1 * k.val = k.val; rw [e1]; omega

/-- Row p of the node features' tile at point `t` is row `1000 t + p` of the node features. -/
theorem blk_h (c : Dev nD) (t : Fin cfg1.N) (p : Fin 1000) (k : Fin 128) (r : Fin 10000) (hr : r.val = 1000 * t.val + p.val) :
    (iblk1 V c 1 t : Vec Ideal S1000x128 .f32) (ix2 p k) = (V c main_v14 : S10000x128.Idx → EReal) (ix2 r k) := by
  obtain ⟨-, -, e0, e1, -⟩ := idx_facts t
  unfold iblk1
  rw [View.read_apply]
  show V c main_v14 _ = V c main_v14 _
  congr 1
  funext a; apply Fin.ext
  match a with
  | ⟨0, _⟩ => show win1_1.index t (0 : Fin 2) * 1000 + 1 * p.val = r.val; rw [e0, hr]; omega
  | ⟨1, _⟩ => show win1_1.index t (1 : Fin 2) * 128 + 1 * k.val = k.val; rw [e1]; omega

/-- The first weight tile is the whole first weight array. -/
theorem blk_wl (c : Dev nD) (t : Fin cfg1.N) (k : Fin 128) (q : Fin 128) :
    (iblk1 V c 2 t : Vec Ideal S128x128 .f32) (ix2 k q) = (V c main_v28 : S128x128.Idx → EReal) (ix2 k q) := by
  obtain ⟨-, -, -, -, e0, e1, -⟩ := idx_facts t
  unfold iblk1
  rw [View.read_apply]
  show V c main_v28 _ = V c main_v28 _
  congr 1
  funext a; apply Fin.ext
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The bias' tile is the whole bias row. -/
theorem blk_b (c : Dev nD) (t : Fin cfg1.N) (q : Fin 128) :
    (iblk1 V c 3 t : Vec Ideal S1x128 .f32) (ix2 0 q) = (V c main_v29 : S1x128.Idx → EReal) (ix2 0 q) := by
  obtain ⟨-, -, -, -, -, -, e0, e1, -⟩ := idx_facts t
  unfold iblk1
  rw [View.read_apply]
  show V c main_v29 _ = V c main_v29 _
  congr 1
  funext a; apply Fin.ext
  match a with
  | ⟨0, _⟩ => show win1_3.index t (0 : Fin 2) * 1 + 1 * 0 = 0; rw [e0]
  | ⟨1, _⟩ => show win1_3.index t (1 : Fin 2) * 128 + 1 * q.val = q.val; rw [e1]; omega

/-- The second weight tile is the whole second weight array. -/
theorem blk_wr (c : Dev nD) (t : Fin cfg1.N) (k : Fin 128) (q : Fin 128) :
    (iblk1 V c 4 t : Vec Ideal S128x128 .f32) (ix2 k q) = (V c main_v30 : S128x128.Idx → EReal) (ix2 k q) := by
  obtain ⟨-, -, -, -, -, -, -, -, e0, e1, -⟩ := idx_facts t
  unfold iblk1
  rw [View.read_apply]
  show V c main_v30 _ = V c main_v30 _
  congr 1
  funext a; apply Fin.ext
  match a with
  | ⟨0, _⟩ => show win1_4.index t (0 : Fin 2) * 128 + 1 * k.val = k.val; rw [e0]; omega
  | ⟨1, _⟩ => show win1_4.index t (1 : Fin 2) * 128 + 1 * q.val = q.val; rw [e1]; omega

/-- What point `t` writes back is rows `1000 t …` of the stage's whole-array function of the arrays as the region finds them. -/
theorem flushed_eq (c : Dev nD) (t : Fin cfg1.N) :
    (dat1 V c).flushed 5 t
      = ((cfg1.win 5).blk t).view.read (Elt Ideal)
          (combine (V c main_v27) (V c main_v14) (V c main_v28) (V c main_v29) (V c main_v30)) := by
  show (cfg1.win 5).cut (grid1.coords t) ((dat1 V c).after 5 t) = _
  rw [after1_5]
  unfold out1_5
  rw [View.canon_unit_zero hz]
  simp only [View.ld_unit_zero (S := S1000x128) hz, View.ld_unit_zero (S := S128x128) hz, View.ld_unit_zero (S := S1x128) hz]
  funext y
  obtain ⟨p, q, rfl⟩ : ∃ (p : Fin 1000) (q : Fin 128), y = ix2 p q := ⟨y 0, y 1, eq_ix2 y⟩
  rw [View.read_apply]
  obtain ⟨-, -, -, -, -, -, -, -, -, -, e0, e1⟩ := idx_facts t
  have hN : cfg1.N = 10 := N_1
  have hlt : 1000 * t.val + p.val < 10000 := by have := t.isLt; have := p.isLt; omega
  have he : ((cfg1.win 5).blk t).view.emb (ix2 p q) = ix2 (⟨1000 * t.val + p.val, hlt⟩ : Fin 10000) q := by
    funext a; apply Fin.ext
    match a with
    | ⟨0, _⟩ => show win1_5.index t (0 : Fin 2) * 1000 + 1 * p.val = 1000 * t.val + p.val; rw [e0]; omega
    | ⟨1, _⟩ => show win1_5.index t (1 : Fin 2) * 128 + 1 * q.val = q.val; rw [e1]; omega
  rw [he, combine_apply]
  refine (pay_apply (iblk1 V c 0 t) (iblk1 V c 1 t) (iblk1 V c 2 t) (iblk1 V c 4 t) (iblk1 V c 3 t) p q).trans ?_
  have em : prod (iblk1 V c 0 t : Vec Ideal S1000x128 .f32) (iblk1 V c 2 t : Vec Ideal S128x128 .f32) p q
      = prod (V c main_v27 : S10000x128.Idx → EReal) (V c main_v28 : S128x128.Idx → EReal) ⟨1000 * t.val + p.val, hlt⟩ q := by
    unfold prod
    refine Finset.sum_congr rfl fun k _ => ?_
    exact congrArg₂ (· * ·) (blk_mean V c t p k _ rfl) (blk_wl V c t k q)
  have eh : prod (iblk1 V c 1 t : Vec Ideal S1000x128 .f32) (iblk1 V c 4 t : Vec Ideal S128x128 .f32) p q
      = prod (V c main_v14 : S10000x128.Idx → EReal) (V c main_v30 : S128x128.Idx → EReal) ⟨1000 * t.val + p.val, hlt⟩ q := by
    unfold prod
    refine Finset.sum_congr rfl fun k _ => ?_
    exact congrArg₂ (· * ·) (blk_h V c t p k _ rfl) (blk_wr V c t k q)
  exact congrArg₂ (· + ·) (congrArg₂ (· + ·) em eh) (blk_b V c t q)

/-- An index of the result is in point `t`'s block iff each coordinate is in the block's range on its axis. -/
theorem mem_blk (t : Fin cfg1.N) (i : S10000x128.Idx) :
    i ∈ ((cfg1.win 5).blk t).view.set ↔ ∀ a : Fin 2, win1_5.index t a * S1000x128.size a ≤ (i a).val
      ∧ (i a).val < win1_5.index t a * S1000x128.size a + S1000x128.size a := by
  show i ∈ ((View.whole main_v31).slice (win1_5.rect t)).set ↔ _
  rw [View.set_slice_whole, Rect.mem_set_unit]
  exact Iff.rfl

/-- THE REGION'S VALUE: after the run the result array is the stage's function of the arrays as the region finds them.
    Row `r` lies in the block of point `r / 1000`. -/
theorem value (c : Dev nD) :
    (dat1 V c).arrAt 5 cfg1.N
      = combine (V c main_v27) (V c main_v14) (V c main_v28) (V c main_v29) (V c main_v30) :=
  (dat1 V c).arrAt_eq_of_cover 5 (combine (V c main_v27) (V c main_v14) (V c main_v28) (V c main_v29) (V c main_v30))
    (fun t _ => flushed_eq V c t) fun i => by
    have hN : cfg1.N = 10 := N_1
    have hi0 : (i 0).val < 10000 := (i 0).isLt
    have hi1 : (i 1).val < 128 := (i 1).isLt
    let t : Fin cfg1.N := ⟨(i 0).val / 1000, by rw [hN]; omega⟩
    obtain ⟨-, -, -, -, -, -, -, -, -, -, e0, e1⟩ := idx_facts t
    refine ⟨t, flush1_5 t, ?_⟩
    rw [mem_blk]
    intro a
    match a with
    | ⟨0, _⟩ =>
      show win1_5.index t (0 : Fin 2) * 1000 ≤ (i 0).val ∧ (i 0).val < win1_5.index t (0 : Fin 2) * 1000 + 1000
      rw [e0]; show (i 0).val / 1000 * 1000 ≤ (i 0).val ∧ (i 0).val < (i 0).val / 1000 * 1000 + 1000; omega
    | ⟨1, _⟩ =>
      show win1_5.index t (1 : Fin 2) * 128 ≤ (i 1).val ∧ (i 1).val < win1_5.index t (1 : Fin 2) * 128 + 128
      rw [e1]; omega

end Cert.KernelIdeal.Region1

end
-- ==== Proof.Region2.lean ====
/-
  The region of the second combine stage (clamped at zero): what its result array holds after all ten grid points.

  Point `t` stages rows `1000 t … 1000 t + 999` of the aggregated mean and of the node features, and the two whole weight
  matrices and the whole bias row; the body stores, per entry, the mean's row times one weight column plus the node's row
  times the other weight column plus the bias, clamped at zero. An entry depends on its own row of the two row-tiled inputs
  only, so each tile is a row block of ONE whole-array function, `Spec.combineClamp`, of the five arrays as the region finds them;
  the ten row blocks tile the result.
-/
import proofs.«129019_j63771674411489_1_alg».proof.Proof.KernelIdealFrame
import proofs.«129019_j63771674411489_1_alg».proof.Proof.LibDense
import proofs.«129019_j63771674411489_1_alg».proof.Proof.Spec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q) of a tile. The changes of float format are the identity on the extended reals, and
    a product accumulated into a zero array is the plain sum over the contracted axis. -/
theorem pay_apply (x0 x1 : Vec Ideal S1000x128 .f32) (wl wr : Vec Ideal S128x128 .f32) (b : Vec Ideal S1x128 .f32)
    (p : Fin 1000) (q : Fin 128) :
    k2_pay1 (F := Ideal) x0 x1 wl wr b (ix2 p q) = max (prod x0 wl p q + prod x1 wr p q + b (ix2 0 q)) 0 := by
  unfold k2_pay1
  show max (FloatOps.matmul (DotDims.plain 1000 128 128) none _ _ (constant ⟨2, ![1000, 128]⟩ .f32 0x00000000#32) (ix2 p q)
      + FloatOps.matmul (DotDims.plain 1000 128 128) none _ _ (constant ⟨2, ![1000, 128]⟩ .f32 0x00000000#32) (ix2 p q)
      + broadcastTo ⟨2, ![1000, 128]⟩ _ broadcasts_S1x128_S1000x128 (ix2 p q)) (Ideal.ofBits .f32 0x00000000#32) = _
  rw [Cert.LibDense.matmul_plain_zero_apply, Cert.LibDense.matmul_plain_zero_apply, broadcastTo_1b_ab_apply, Ideal.ofBits_zero_f32]
  unfold prod
  simp only [shapeCast_self]
  rfl

/-- The printed index maps over the grid: the two row-tiled inputs and the result move down one row block per point, the
    weights and the bias stay at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of the mean's tile at point `t` is row `1000 t + p` of the mean. -/
theorem blk_mean (c : Dev nD) (t : Fin cfg2.N) (p : Fin 1000) (k : Fin 128) (r : Fin 10000) (hr : r.val = 1000 * t.val + p.val) :
    (iblk2 V c 0 t : Vec Ideal S1000x128 .f32) (ix2 p k) = (V c main_v44 : S10000x128.Idx → EReal) (ix2 r k) := by
  obtain ⟨e0, e1, -⟩ := idx_facts t
  unfold iblk2
  rw [View.read_apply]
  show V c main_v44 _ = V c main_v44 _
  congr 1
  funext a; apply Fin.ext
  match a with
  | ⟨0, _⟩ => show win2_0.index t (0 : Fin 2) * 1000 + 1 * p.val = r.val; rw [e0, hr]; omega
  | ⟨1, _⟩ => show win2_0.index t (1 : Fin 2) * 128 + 1 * k.val = k.val; rw [e1]; omega

/-- Row p of the node features' tile at point `t` is row `1000 t + p` of the node features. -/
theorem blk_h (c : Dev nD) (t : Fin cfg2.N) (p : Fin 1000) (k : Fin 128) (r : Fin 10000) (hr : r.val = 1000 * t.val + p.val) :
    (iblk2 V c 1 t : Vec Ideal S1000x128 .f32) (ix2 p k) = (V c main_v31 : S10000x128.Idx → EReal) (ix2 r k) := by
  obtain ⟨-, -, e0, e1, -⟩ := idx_facts t
  unfold iblk2
  rw [View.read_apply]
  show V c main_v31 _ = V c main_v31 _
  congr 1
  funext a; apply Fin.ext
  match a with
  | ⟨0, _⟩ => show win2_1.index t (0 : Fin 2) * 1000 + 1 * p.val = r.val; rw [e0, hr]; omega
  | ⟨1, _⟩ => show win2_1.index t (1 : Fin 2) * 128 + 1 * k.val = k.val; rw [e1]; omega

/-- The first weight tile is the whole first weight array. -/
theorem blk_wl (c : Dev nD) (t : Fin cfg2.N) (k : Fin 128) (q : Fin 128) :
    (iblk2 V c 2 t : Vec Ideal S128x128 .f32) (ix2 k q) = (V c main_v45 : S128x128.Idx → EReal) (ix2 k q) := by
  obtain ⟨-, -, -, -, e0, e1, -⟩ := idx_facts t
  unfold iblk2
  rw [View.read_apply]
  show V c main_v45 _ = V c main_v45 _
  congr 1
  funext a; apply Fin.ext
  match a with
  | ⟨0, _⟩ => show win2_2.index t (0 : Fin 2) * 128 + 1 * k.val = k.val; rw [e0]; omega
  | ⟨1, _⟩ => show win2_2.index t (1 : Fin 2) * 128 + 1 * q.val = q.val; rw [e1]; omega

/-- The bias' tile is the whole bias row. -/
theorem blk_b (c : Dev nD) (t : Fin cfg2.N) (q : Fin 128) :
    (iblk2 V c 3 t : Vec Ideal S1x128 .f32) (ix2 0 q) = (V c main_v46 : S1x128.Idx → EReal) (ix2 0 q) := by
  obtain ⟨-, -, -, -, -, -, e0, e1, -⟩ := idx_facts t
  unfold iblk2
  rw [View.read_apply]
  show V c main_v46 _ = V c main_v46 _
  congr 1
  funext a; apply Fin.ext
  match a with
  | ⟨0, _⟩ => show win2_3.index t (0 : Fin 2) * 1 + 1 * 0 = 0; rw [e0]
  | ⟨1, _⟩ => show win2_3.index t (1 : Fin 2) * 128 + 1 * q.val = q.val; rw [e1]; omega

/-- The second weight tile is the whole second weight array. -/
theorem blk_wr (c : Dev nD) (t : Fin cfg2.N) (k : Fin 128) (q : Fin 128) :
    (iblk2 V c 4 t : Vec Ideal S128x128 .f32) (ix2 k q) = (V c main_v47 : S128x128.Idx → EReal) (ix2 k q) := by
  obtain ⟨-, -, -, -, -, -, -, -, e0, e1, -⟩ := idx_facts t
  unfold iblk2
  rw [View.read_apply]
  show V c main_v47 _ = V c main_v47 _
  congr 1
  funext a; apply Fin.ext
  match a with
  | ⟨0, _⟩ => show win2_4.index t (0 : Fin 2) * 128 + 1 * k.val = k.val; rw [e0]; omega
  | ⟨1, _⟩ => show win2_4.index t (1 : Fin 2) * 128 + 1 * q.val = q.val; rw [e1]; omega

/-- What point `t` writes back is rows `1000 t …` of the stage's whole-array function of the arrays as the region finds them. -/
theorem flushed_eq (c : Dev nD) (t : Fin cfg2.N) :
    (dat2 V c).flushed 5 t
      = ((cfg2.win 5).blk t).view.read (Elt Ideal)
          (combineClamp (V c main_v44) (V c main_v31) (V c main_v45) (V c main_v46) (V c main_v47)) := by
  show (cfg2.win 5).cut (grid2.coords t) ((dat2 V c).after 5 t) = _
  rw [after2_5]
  unfold out2_5
  rw [View.canon_unit_zero hz]
  simp only [View.ld_unit_zero (S := S1000x128) hz, View.ld_unit_zero (S := S128x128) hz, View.ld_unit_zero (S := S1x128) hz]
  funext y
  obtain ⟨p, q, rfl⟩ : ∃ (p : Fin 1000) (q : Fin 128), y = ix2 p q := ⟨y 0, y 1, eq_ix2 y⟩
  rw [View.read_apply]
  obtain ⟨-, -, -, -, -, -, -, -, -, -, e0, e1⟩ := idx_facts t
  have hN : cfg2.N = 10 := N_2
  have hlt : 1000 * t.val + p.val < 10000 := by have := t.isLt; have := p.isLt; omega
  have he : ((cfg2.win 5).blk t).view.emb (ix2 p q) = ix2 (⟨1000 * t.val + p.val, hlt⟩ : Fin 10000) q := by
    funext a; apply Fin.ext
    match a with
    | ⟨0, _⟩ => show win2_5.index t (0 : Fin 2) * 1000 + 1 * p.val = 1000 * t.val + p.val; rw [e0]; omega
    | ⟨1, _⟩ => show win2_5.index t (1 : Fin 2) * 128 + 1 * q.val = q.val; rw [e1]; omega
  rw [he, combineClamp_apply]
  refine (pay_apply (iblk2 V c 0 t) (iblk2 V c 1 t) (iblk2 V c 2 t) (iblk2 V c 4 t) (iblk2 V c 3 t) p q).trans ?_
  have em : prod (iblk2 V c 0 t : Vec Ideal S1000x128 .f32) (iblk2 V c 2 t : Vec Ideal S128x128 .f32) p q
      = prod (V c main_v44 : S10000x128.Idx → EReal) (V c main_v45 : S128x128.Idx → EReal) ⟨1000 * t.val + p.val, hlt⟩ q := by
    unfold prod
    refine Finset.sum_congr rfl fun k _ => ?_
    exact congrArg₂ (· * ·) (blk_mean V c t p k _ rfl) (blk_wl V c t k q)
  have eh : prod (iblk2 V c 1 t : Vec Ideal S1000x128 .f32) (iblk2 V c 4 t : Vec Ideal S128x128 .f32) p q
      = prod (V c main_v31 : S10000x128.Idx → EReal) (V c main_v47 : S128x128.Idx → EReal) ⟨1000 * t.val + p.val, hlt⟩ q := by
    unfold prod
    refine Finset.sum_congr rfl fun k _ => ?_
    exact congrArg₂ (· * ·) (blk_h V c t p k _ rfl) (blk_wr V c t k q)
  exact congrArg (fun z => max z 0) (congrArg₂ (· + ·) (congrArg₂ (· + ·) em eh) (blk_b V c t q))

/-- An index of the result is in point `t`'s block iff each coordinate is in the block's range on its axis. -/
theorem mem_blk (t : Fin cfg2.N) (i : S10000x128.Idx) :
    i ∈ ((cfg2.win 5).blk t).view.set ↔ ∀ a : Fin 2, win2_5.index t a * S1000x128.size a ≤ (i a).val
      ∧ (i a).val < win2_5.index t a * S1000x128.size a + S1000x128.size a := by
  show i ∈ ((View.whole main_v48).slice (win2_5.rect t)).set ↔ _
  rw [View.set_slice_whole, Rect.mem_set_unit]
  exact Iff.rfl

/-- THE REGION'S VALUE: after the run the result array is the stage's function of the arrays as the region finds them.
    Row `r` lies in the block of point `r / 1000`. -/
theorem value (c : Dev nD) :
    (dat2 V c).arrAt 5 cfg2.N
      = combineClamp (V c main_v44) (V c main_v31) (V c main_v45) (V c main_v46) (V c main_v47) :=
  (dat2 V c).arrAt_eq_of_cover 5 (combineClamp (V c main_v44) (V c main_v31) (V c main_v45) (V c main_v46) (V c main_v47))
    (fun t _ => flushed_eq V c t) fun i => by
    have hN : cfg2.N = 10 := N_2
    have hi0 : (i 0).val < 10000 := (i 0).isLt
    have hi1 : (i 1).val < 128 := (i 1).isLt
    let t : Fin cfg2.N := ⟨(i 0).val / 1000, by rw [hN]; omega⟩
    obtain ⟨-, -, -, -, -, -, -, -, -, -, e0, e1⟩ := idx_facts t
    refine ⟨t, flush2_5 t, ?_⟩
    rw [mem_blk]
    intro a
    match a with
    | ⟨0, _⟩ =>
      show win2_5.index t (0 : Fin 2) * 1000 ≤ (i 0).val ∧ (i 0).val < win2_5.index t (0 : Fin 2) * 1000 + 1000
      rw [e0]; show (i 0).val / 1000 * 1000 ≤ (i 0).val ∧ (i 0).val < (i 0).val / 1000 * 1000 + 1000; omega
    | ⟨1, _⟩ =>
      show win2_5.index t (1 : Fin 2) * 128 ≤ (i 1).val ∧ (i 1).val < win2_5.index t (1 : Fin 2) * 128 + 128
      rw [e1]; omega

end Cert.KernelIdeal.Region2

end
-- ==== Proof.Region3.lean ====
/-
  The classifier's region: what its result array holds after all ten grid points.

  Point `t` stages rows `1000 t … 1000 t + 999` of the hidden features and the whole transposed classifier matrix; the body
  stores the tile's product with it. Entry (p, q) depends on row p of the tile only, so the tile at point `t` is rows
  `1000 t …` of ONE whole-array function, `Spec.classify`, of the two arrays as the region finds them; the ten row blocks
  tile the result.
-/
import proofs.«129019_j63771674411489_1_alg».proof.Proof.KernelIdealFrame
import proofs.«129019_j63771674411489_1_alg».proof.Proof.LibDense
import proofs.«129019_j63771674411489_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q) of a tile: row p times column q. The changes of float format are the identity on
    the extended reals, and a product accumulated into a zero array is the plain sum over the contracted axis. -/
theorem pay_apply (x0 : Vec Ideal S1000x128 .f32) (w : Vec Ideal S128x64 .f32) (p : Fin 1000) (q : Fin 64) :
    k3_pay1 (F := Ideal) x0 w (ix2 p q) = prod x0 w p q := by
  unfold k3_pay1
  show FloatOps.matmul (DotDims.plain 1000 128 64) none _ _ (constant ⟨2, ![1000, 64]⟩ .f32 0x00000000#32) (ix2 p q) = _
  rw [Cert.LibDense.matmul_plain_zero_apply]
  unfold prod
  simp only [shapeCast_self]
  rfl

/-- The printed index maps over the grid: the features' and the result's windows move down one row block per point, the
    classifier matrix stays at block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of the features' tile at point `t` is row `1000 t + p` of the features. -/
theorem blk_h (c : Dev nD) (t : Fin cfg3.N) (p : Fin 1000) (k : Fin 128) (r : Fin 10000) (hr : r.val = 1000 * t.val + p.val) :
    (iblk3 V c 0 t : Vec Ideal S1000x128 .f32) (ix2 p k) = (V c main_v48 : S10000x128.Idx → EReal) (ix2 r k) := by
  obtain ⟨e0, e1, -⟩ := idx_facts t
  unfold iblk3
  rw [View.read_apply]
  show V c main_v48 _ = V c main_v48 _
  congr 1
  funext a; apply Fin.ext
  match a with
  | ⟨0, _⟩ => show win3_0.index t (0 : Fin 2) * 1000 + 1 * p.val = r.val; rw [e0, hr]; omega
  | ⟨1, _⟩ => show win3_0.index t (1 : Fin 2) * 128 + 1 * k.val = k.val; rw [e1]; omega

/-- The classifier matrix' tile is the whole matrix. -/
theorem blk_w (c : Dev nD) (t : Fin cfg3.N) (k : Fin 128) (q : Fin 64) :
    (iblk3 V c 1 t : Vec Ideal S128x64 .f32) (ix2 k q) = (V c main_v49 : S128x64.Idx → EReal) (ix2 k q) := by
  obtain ⟨-, -, e0, e1, -⟩ := idx_facts t
  unfold iblk3
  rw [View.read_apply]
  show V c main_v49 _ = V c main_v49 _
  congr 1
  funext a; apply Fin.ext
  match a with
  | ⟨0, _⟩ => show win3_1.index t (0 : Fin 2) * 128 + 1 * k.val = k.val; rw [e0]; omega
  | ⟨1, _⟩ => show win3_1.index t (1 : Fin 2) * 64 + 1 * q.val = q.val; rw [e1]; omega

/-- What point `t` writes back is rows `1000 t …` of the product of the arrays as the region finds them. -/
theorem flushed_eq (c : Dev nD) (t : Fin cfg3.N) :
    (dat3 V c).flushed 2 t = ((cfg3.win 2).blk t).view.read (Elt Ideal) (classify (V c main_v48) (V c main_v49)) := by
  show (cfg3.win 2).cut (grid3.coords t) ((dat3 V c).after 2 t) = _
  rw [after3_2]
  unfold out3_2
  rw [View.canon_unit_zero hz]
  simp only [View.ld_unit_zero (S := S1000x128) hz, View.ld_unit_zero (S := S128x64) hz]
  funext y
  obtain ⟨p, q, rfl⟩ : ∃ (p : Fin 1000) (q : Fin 64), y = ix2 p q := ⟨y 0, y 1, eq_ix2 y⟩
  rw [View.read_apply]
  obtain ⟨-, -, -, -, e0, e1⟩ := idx_facts t
  have hN : cfg3.N = 10 := N_3
  have hlt : 1000 * t.val + p.val < 10000 := by have := t.isLt; have := p.isLt; omega
  have he : ((cfg3.win 2).blk t).view.emb (ix2 p q) = ix2 (⟨1000 * t.val + p.val, hlt⟩ : Fin 10000) q := by
    funext a; apply Fin.ext
    match a with
    | ⟨0, _⟩ => show win3_2.index t (0 : Fin 2) * 1000 + 1 * p.val = 1000 * t.val + p.val; rw [e0]; omega
    | ⟨1, _⟩ => show win3_2.index t (1 : Fin 2) * 64 + 1 * q.val = q.val; rw [e1]; omega
  rw [he, classify_apply]
  refine (pay_apply (iblk3 V c 0 t) (iblk3 V c 1 t) p q).trans ?_
  unfold prod
  refine Finset.sum_congr rfl fun k _ => ?_
  exact congrArg₂ (· * ·) (blk_h V c t p k _ rfl) (blk_w V c t k q)

/-- An index of the result is in point `t`'s block iff each coordinate is in the block's range on its axis. -/
theorem mem_blk (t : Fin cfg3.N) (i : S10000x64.Idx) :
    i ∈ ((cfg3.win 2).blk t).view.set ↔ ∀ a : Fin 2, win3_2.index t a * S1000x64.size a ≤ (i a).val
      ∧ (i a).val < win3_2.index t a * S1000x64.size a + S1000x64.size a := by
  show i ∈ ((View.whole main_v50).slice (win3_2.rect t)).set ↔ _
  rw [View.set_slice_whole, Rect.mem_set_unit]
  exact Iff.rfl

/-- THE REGION'S VALUE: after the run the result array is the product of the arrays as the region finds them. Row `r`
    lies in the block of point `r / 1000`. -/
theorem value (c : Dev nD) : (dat3 V c).arrAt 2 cfg3.N = classify (V c main_v48) (V c main_v49) :=
  (dat3 V c).arrAt_eq_of_cover 2 (classify (V c main_v48) (V c main_v49)) (fun t _ => flushed_eq V c t) fun i => by
    have hN : cfg3.N = 10 := N_3
    have hi0 : (i 0).val < 10000 := (i 0).isLt
    have hi1 : (i 1).val < 64 := (i 1).isLt
    let t : Fin cfg3.N := ⟨(i 0).val / 1000, by rw [hN]; omega⟩
    obtain ⟨-, -, -, -, e0, e1⟩ := idx_facts t
    refine ⟨t, flush3_2 t, ?_⟩
    rw [mem_blk]
    intro a
    match a with
    | ⟨0, _⟩ =>
      show win3_2.index t (0 : Fin 2) * 1000 ≤ (i 0).val ∧ (i 0).val < win3_2.index t (0 : Fin 2) * 1000 + 1000
      rw [e0]; show (i 0).val / 1000 * 1000 ≤ (i 0).val ∧ (i 0).val < (i 0).val / 1000 * 1000 + 1000; omega
    | ⟨1, _⟩ =>
      show win3_2.index t (1 : Fin 2) * 64 ≤ (i 1).val ∧ (i 1).val < win3_2.index t (1 : Fin 2) * 64 + 64
      rw [e1]; omega

end Cert.KernelIdeal.Region3

end
-- ==== Proof.Glue.lean ====
/-
  The graph side of the network, shared by the kernel's program and the reference: the neighbour aggregation (a row
  gather by the edges' sources, then a scatter-add by their destinations into zeros), the clamped in-degree
  `max deg 1`, and the mean in its two spellings — the aggregate TIMES the reciprocal of the clamped degree, and the
  aggregate DIVIDED BY the clamped degree.

  The two spellings are one array: the clamped degree is at least one, hence not zero, so the quotient by it is the
  product with its inverse, and one times that inverse is the inverse (Spec.mul_recip_eq_div). Nothing is assumed of
  the aggregate or of the degree beyond that; the gather and the scatter-add are never opened.
-/
import proofs.«129019_j63771674411489_1_alg».proof.KernelIdeal
import proofs.«129019_j63771674411489_1_alg».proof.Proof.Gen.KernelIdeal
import proofs.«129019_j63771674411489_1_alg».proof.Proof.Spec
import Idealize.ShloMosaic.Lib.Pipeline.Value
import Idealize.ShloMosaic.Lib.ValueIdx
import Idealize.ShloMosaic.Lib.IdealHost

set_option maxRecDepth 16384

noncomputable section

open Idealize.ShloMosaic Idealize.ShloMosaic.ValueIdx

namespace Cert.KernelIdeal.Glue

open Cert.KernelIdeal Cert.KernelIdeal.Gen

/-- The two rows of edge endpoints. -/
abbrev Edges : Type := (⟨S2x640000, .i32⟩ : BufTy).Contents (Elt Ideal)
/-- One endpoint per edge. -/
abbrev Ends : Type := (⟨S640000, .i32⟩ : BufTy).Contents (Elt Ideal)
/-- One row of 128 features per node. -/
abbrev Feat : Type := FVec Ideal S10000x128 .f32
/-- One number per node. -/
abbrev PerNode : Type := FVec Ideal S10000 .f32

/-- The edges' sources: row 0 of the endpoint array. -/
def srcOf (e : Edges) : Ends :=
  shapeCast _ (extractStridedSlice S1x640000 ![0, 0] e slices_S2x640000_S1x640000_0_0) shapeCasts_S1x640000_S640000

/-- The edges' destinations: row 1 of the endpoint array. -/
def dstOf (e : Edges) : Ends :=
  shapeCast _ (extractStridedSlice S1x640000 ![1, 0] e slices_S2x640000_S1x640000_1_0) shapeCasts_S1x640000_S640000

/-- One per node. -/
def ones : PerNode := broadcastInDim S10000 ![] bcast_S_S10000 (constant (F := Ideal) S_ .f32 0x3F800000#32)

/-- The in-degree (ones scatter-added by destination into zeros), clamped below at one. -/
def degClamped (dst : Ends) : PerNode :=
  maximumf (Host.scatterAdd scatter_S10000_S640000x1_S640000_n_0_0_1
      (broadcastInDim S10000 ![] bcast_S_S10000 (constant (F := Ideal) S_ .f32 0x00000000#32))
      (broadcastInDim S640000x1 ![0] bcast_S640000_S640000x1_0 dst)
      (broadcastInDim S640000 ![] bcast_S_S640000 (constant (F := Ideal) S_ .f32 0x3F800000#32))) ones

/-- The reciprocal of the clamped in-degree. -/
def degInv (dst : Ends) : PerNode := Host.divf ones (degClamped dst)

/-- The neighbour aggregation: each edge's source row (a negative source counted from the end), scatter-added at the
    edge's destination into zeros. -/
def aggregate (h : Feat) (src dst : Ends) : Feat :=
  Host.scatterAdd scatter_S10000x128_S640000x1_S640000x128_1_0_0_1
    (broadcastInDim S10000x128 ![] bcast_S_S10000x128 (constant (F := Ideal) S_ .f32 0x00000000#32))
    (broadcastInDim S640000x1 ![0] bcast_S640000_S640000x1_0 dst)
    (Host.gather gather_S10000x128_S640000x1_S640000x128_1_0_n_n_0_1_1128 h
      (broadcastInDim S640000x1 ![0] bcast_S640000_S640000x1_0
        (select (cmpi .slt src (broadcastInDim S640000 ![] bcast_S_S640000 (constantI S_ 32 0#32)))
          (addi src (broadcastInDim S640000 ![] bcast_S_S640000 (constantI S_ 32 10000#32))) src)))

/-- A per-node number laid along its node's whole row. -/
def spread (v : PerNode) : Feat :=
  broadcastInDim S10000x128 ![0, 1] bcast_S10000x1_S10000x128_0_1 (broadcastInDim S10000x1 ![0] bcast_S10000_S10000x1_0 v)

/-- The aggregate times a per-node factor laid along the rows. -/
def meanWith (h : Feat) (src dst : Ends) (f : PerNode) : Feat := mulf (aggregate h src dst) (spread f)

/-- The mean as the kernel's program spells it: the aggregate times the reciprocal of the clamped degree. -/
def meanMul (h : Feat) (src dst : Ends) : Feat := meanWith h src dst (degInv dst)

/-- The mean as the reference spells it: the aggregate divided by the clamped degree. -/
def meanDiv (h : Feat) (src dst : Ends) : Feat := Host.divf (aggregate h src dst) (spread (degClamped dst))

/-- The node an entry belongs to. -/
abbrev nodeOf (i : S10000x128.Idx) : S10000.Idx := fun a => match a with
  | ⟨0, _⟩ => ⟨(i 0).val, (i 0).isLt⟩

/-- An entry of a spread array is its node's number. -/
theorem spread_apply (v : PerNode) (i : S10000x128.Idx) : spread v i = v (nodeOf i) := by
  unfold spread
  have e2 := broadcastInDim_apply ![0, 1] bcast_S10000x1_S10000x128_0_1
    (broadcastInDim S10000x1 ![0] bcast_S10000_S10000x1_0 v) i
    (fun a => match a with
      | ⟨0, _⟩ => ⟨(i 0).val, (i 0).isLt⟩
      | ⟨1, _⟩ => ⟨0, Nat.one_pos⟩)
    (fun a => match a with
      | ⟨0, _⟩ => by show (i 0).val = if (10000 : Nat) = 1 then 0 else (i 0).val; rw [if_neg (by decide)]
      | ⟨1, _⟩ => by show 0 = if (1 : Nat) = 1 then 0 else (i 1).val; rw [if_pos rfl])
  rw [e2]
  exact broadcastInDim_apply ![0] bcast_S10000_S10000x1_0 v _ (nodeOf i) (fun a => match a with
    | ⟨0, _⟩ => by show (i 0).val = if (10000 : Nat) = 1 then 0 else (i 0).val; rw [if_neg (by decide)])

/-- Every entry of `ones` is the real number one. -/
theorem ones_apply (j : S10000.Idx) : ones j = 1 := by
  unfold ones
  rw [broadcastInDim_apply ![] bcast_S_S10000 (constant (F := Ideal) S_ .f32 0x3F800000#32) j (fun a => a.elim0) (fun a => a.elim0)]
  exact Cert.Spec.ofBits_one_f32

/-- Law (1) on arrays: for ANY aggregate and ANY degree array, the product with the spread reciprocal of the clamped
    degree is the quotient by the spread clamped degree. -/
theorem mul_spread_recip (A : Feat) (dg : PerNode) :
    mulf A (spread (Host.divf ones (maximumf dg ones))) = Host.divf A (spread (maximumf dg ones)) := by
  funext i
  rw [mulf_apply, hostDivf_apply, spread_apply, spread_apply, hostDivf_apply, maximumf_apply, ones_apply]
  exact Cert.Spec.mul_recip_eq_div _ _

/-- THE MEAN'S TWO SPELLINGS ARE ONE ARRAY. -/
theorem meanMul_eq_meanDiv (h : Feat) (src dst : Ends) : meanMul h src dst = meanDiv h src dst := by
  unfold meanMul meanWith meanDiv degInv degClamped
  exact mul_spread_recip _ _

/-! ## The whole network as one function of its eleven arguments -/

open Cert.Spec in
/-- The input projection of the node features, with the weight matrix transposed and the bias as a one-row array. -/
def hidden0 (x : FVec Ideal S10000x256 .f32) (wlin : FVec Ideal S128x256 .f32) (blin : FVec Ideal S128 .f32) : Feat :=
  project x (transpose S256x128 [1, 0] wlin transposes_S128x256_S256x128_1_0) (shapeCast S1x128 blin shapeCasts_S128_S1x128)

open Cert.Spec in
/-- One mean-aggregation layer over features `h`: the neighbours' mean and the node's own row, each through its
    transposed weight matrix, plus the bias. -/
def layer (h : Feat) (e : Edges) (wl : FVec Ideal S128x128 .f32) (bl : FVec Ideal S128 .f32) (wr : FVec Ideal S128x128 .f32) : Feat :=
  combine (meanMul h (srcOf e) (dstOf e)) h (transpose S128x128 [1, 0] wl transposes_S128x128_S128x128_1_0)
    (shapeCast S1x128 bl shapeCasts_S128_S1x128) (transpose S128x128 [1, 0] wr transposes_S128x128_S128x128_1_0)

open Cert.Spec in
/-- The same layer clamped at zero. -/
def layerClamp (h : Feat) (e : Edges) (wl : FVec Ideal S128x128 .f32) (bl : FVec Ideal S128 .f32) (wr : FVec Ideal S128x128 .f32) : Feat :=
  combineClamp (meanMul h (srcOf e) (dstOf e)) h (transpose S128x128 [1, 0] wl transposes_S128x128_S128x128_1_0)
    (shapeCast S1x128 bl shapeCasts_S128_S1x128) (transpose S128x128 [1, 0] wr transposes_S128x128_S128x128_1_0)

open Cert.Spec in
/-- THE NETWORK: projection, a layer, a clamped layer, the classifier. -/
def net (x : FVec Ideal S10000x256 .f32) (e : Edges) (wlin : FVec Ideal S128x256 .f32) (blin : FVec Ideal S128 .f32)
    (wl1 : FVec Ideal S128x128 .f32) (bl1 : FVec Ideal S128 .f32) (wr1 wl2 : FVec Ideal S128x128 .f32) (bl2 : FVec Ideal S128 .f32)
    (wr2 : FVec Ideal S128x128 .f32) (wcls : FVec Ideal S64x128 .f32) : FVec Ideal S10000x64 .f32 :=
  classify (layerClamp (layer (hidden0 x wlin blin) e wl1 bl1 wr1) e wl2 bl2 wr2)
    (transpose S128x64 [1, 0] wcls transposes_S64x128_S128x64_1_0)

end Cert.KernelIdeal.Glue

end
-- ==== Proof.KernelValue.lean ====
/-
  The kernel's program, read: its result array is the network `Glue.net` of its eleven arguments.

  The program is four kernel regions among stretches of host operations. Its run leaves the result array at the last
  entry of a fold through the segments: a host stretch maps the buffers' contents through its operations, a region
  replaces its result array by what its grid points write back (the region's whole-array function, modules Region0 to
  Region3) and leaves every other buffer alone. Walking the fold back from the result:
    the classifier's product of the clamped second layer with the transposed classifier matrix;
    the clamped second layer of the first layer's output, whose mean is the aggregate times the reciprocal degree;
    the first layer of the projected features, likewise;
    the projection of the node features.
  The edges' endpoints and the reciprocal degree are computed once, before the first region, and no later segment
  writes them; no segment writes an argument.
-/
import proofs.«129019_j63771674411489_1_alg».proof.Proof.KernelIdealRun
import proofs.«129019_j63771674411489_1_alg».proof.Proof.Region0
import proofs.«129019_j63771674411489_1_alg».proof.Proof.Region1
import proofs.«129019_j63771674411489_1_alg».proof.Proof.Region2
import proofs.«129019_j63771674411489_1_alg».proof.Proof.Region3
import proofs.«129019_j63771674411489_1_alg».proof.Proof.Glue
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Net

open Cert.KernelIdeal Cert.KernelIdeal.Gen Cert.KernelIdeal.Glue Cert.Spec

variable (m : (ℓ : Loc nD τ sig) → Buf (Elt Ideal) ℓ) (ρ : Dev nD → PrngReg)

/-- An argument's launch contents on core `c`. -/
abbrev arg (c : Dev nD) (b : Ref sig .tc) : Buf (Elt Ideal) ((c : Thread nD τ).loc b) := m ((c : Thread nD τ).loc b)

/-- A buffer that no operation of a host stretch writes keeps its contents across the stretch. -/
macro "kept_by " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## After the first host stretch: the endpoints, the reciprocal degree, the first region's weight and bias -/

theorem w1_arg0 (c : Dev nD) : W1 m ρ c (Proc.devRef .tc main_arg0) = arg m c main_arg0 := by
  show StableHlo.after hostOps0 (W0 m ρ c) (Proc.devRef .tc main_arg0) = W0 m ρ c (Proc.devRef .tc main_arg0)
  kept_by hostOps0
theorem w1_arg4 (c : Dev nD) : W1 m ρ c (Proc.devRef .tc main_arg4) = arg m c main_arg4 := by
  show StableHlo.after hostOps0 (W0 m ρ c) (Proc.devRef .tc main_arg4) = W0 m ρ c (Proc.devRef .tc main_arg4)
  kept_by hostOps0
theorem w1_arg5 (c : Dev nD) : W1 m ρ c (Proc.devRef .tc main_arg5) = arg m c main_arg5 := by
  show StableHlo.after hostOps0 (W0 m ρ c) (Proc.devRef .tc main_arg5) = W0 m ρ c (Proc.devRef .tc main_arg5)
  kept_by hostOps0
theorem w1_arg6 (c : Dev nD) : W1 m ρ c (Proc.devRef .tc main_arg6) = arg m c main_arg6 := by
  show StableHlo.after hostOps0 (W0 m ρ c) (Proc.devRef .tc main_arg6) = W0 m ρ c (Proc.devRef .tc main_arg6)
  kept_by hostOps0
theorem w1_arg7 (c : Dev nD) : W1 m ρ c (Proc.devRef .tc main_arg7) = arg m c main_arg7 := by
  show StableHlo.after hostOps0 (W0 m ρ c) (Proc.devRef .tc main_arg7) = W0 m ρ c (Proc.devRef .tc main_arg7)
  kept_by hostOps0
theorem w1_arg8 (c : Dev nD) : W1 m ρ c (Proc.devRef .tc main_arg8) = arg m c main_arg8 := by
  show StableHlo.after hostOps0 (W0 m ρ c) (Proc.devRef .tc main_arg8) = W0 m ρ c (Proc.devRef .tc main_arg8)
  kept_by hostOps0
theorem w1_arg9 (c : Dev nD) : W1 m ρ c (Proc.devRef .tc main_arg9) = arg m c main_arg9 := by
  show StableHlo.after hostOps0 (W0 m ρ c) (Proc.devRef .tc main_arg9) = W0 m ρ c (Proc.devRef .tc main_arg9)
  kept_by hostOps0
theorem w1_arg10 (c : Dev nD) : W1 m ρ c (Proc.devRef .tc main_arg10) = arg m c main_arg10 := by
  show StableHlo.after hostOps0 (W0 m ρ c) (Proc.devRef .tc main_arg10) = W0 m ρ c (Proc.devRef .tc main_arg10)
  kept_by hostOps0

/-- The edges' sources. -/
theorem w1_v1 (c : Dev nD) : W1 m ρ c (Proc.devRef .tc main_v1) = srcOf (arg m c main_arg1) := by
  show StableHlo.after hostOps0 (W0 m ρ c) (Proc.devRef .tc main_v1) = _
  dsimp only [hostOps0]
  after_results
  all_goals rfl
/-- The edges' destinations. -/
theorem w1_v3 (c : Dev nD) : W1 m ρ c (Proc.devRef .tc main_v3) = dstOf (arg m c main_arg1) := by
  show StableHlo.after hostOps0 (W0 m ρ c) (Proc.devRef .tc main_v3) = _
  dsimp only [hostOps0]
  after_results
  all_goals rfl
/-- The reciprocal of the clamped in-degree. -/
theorem w1_v11 (c : Dev nD) : W1 m ρ c (Proc.devRef .tc main_v11) = degInv (dstOf (arg m c main_arg1)) := by
  show StableHlo.after hostOps0 (W0 m ρ c) (Proc.devRef .tc main_v11) = _
  dsimp only [hostOps0]
  after_results
  all_goals rfl
/-- The projection's weight matrix, transposed. -/
theorem w1_v12 (c : Dev nD) : W1 m ρ c (Proc.devRef .tc main_v12)
    = transpose S256x128 [1, 0] (arg m c main_arg2) transposes_S128x256_S256x128_1_0 := by
  show StableHlo.after hostOps0 (W0 m ρ c) (Proc.devRef .tc main_v12) = _
  dsimp only [hostOps0]
  after_results
  all_goals rfl
/-- The projection's bias as a one-row array. -/
theorem w1_v13 (c : Dev nD) : W1 m ρ c (Proc.devRef .tc main_v13)
    = shapeCast S1x128 (arg m c main_arg3) shapeCasts_S128_S1x128 := by
  show StableHlo.after hostOps0 (W0 m ρ c) (Proc.devRef .tc main_v13) = _
  dsimp only [hostOps0]
  after_results
  all_goals rfl

/-! ## Region 0: the projected features -/

/-- The first region's result: the projection of the node features. -/
theorem w2_v14 (c : Dev nD) : W2 m ρ c (Proc.devRef .tc main_v14)
    = hidden0 (arg m c main_arg0) (arg m c main_arg2) (arg m c main_arg3) := by
  refine ((W2_arr m ρ c 3).trans (Region0.value (V1 m ρ) c)).trans ?_
  unfold hidden0
  show project (W1 m ρ c (Proc.devRef .tc main_arg0)) (W1 m ρ c (Proc.devRef .tc main_v12)) (W1 m ρ c (Proc.devRef .tc main_v13)) = _
  rw [w1_arg0, w1_v12, w1_v13]

theorem w2_v1 (c : Dev nD) : W2 m ρ c (Proc.devRef .tc main_v1) = srcOf (arg m c main_arg1) :=
  (W2_of_ne m ρ c main_v1 (by decide)).trans (w1_v1 m ρ c)
theorem w2_v3 (c : Dev nD) : W2 m ρ c (Proc.devRef .tc main_v3) = dstOf (arg m c main_arg1) :=
  (W2_of_ne m ρ c main_v3 (by decide)).trans (w1_v3 m ρ c)
theorem w2_v11 (c : Dev nD) : W2 m ρ c (Proc.devRef .tc main_v11) = degInv (dstOf (arg m c main_arg1)) :=
  (W2_of_ne m ρ c main_v11 (by decide)).trans (w1_v11 m ρ c)
theorem w2_arg4 (c : Dev nD) : W2 m ρ c (Proc.devRef .tc main_arg4) = arg m c main_arg4 :=
  (W2_of_ne m ρ c main_arg4 (by decide)).trans (w1_arg4 m ρ c)
theorem w2_arg5 (c : Dev nD) : W2 m ρ c (Proc.devRef .tc main_arg5) = arg m c main_arg5 :=
  (W2_of_ne m ρ c main_arg5 (by decide)).trans (w1_arg5 m ρ c)
theorem w2_arg6 (c : Dev nD) : W2 m ρ c (Proc.devRef .tc main_arg6) = arg m c main_arg6 :=
  (W2_of_ne m ρ c main_arg6 (by decide)).trans (w1_arg6 m ρ c)
theorem w2_arg7 (c : Dev nD) : W2 m ρ c (Proc.devRef .tc main_arg7) = arg m c main_arg7 :=
  (W2_of_ne m ρ c main_arg7 (by decide)).trans (w1_arg7 m ρ c)
theorem w2_arg8 (c : Dev nD) : W2 m ρ c (Proc.devRef .tc main_arg8) = arg m c main_arg8 :=
  (W2_of_ne m ρ c main_arg8 (by decide)).trans (w1_arg8 m ρ c)
theorem w2_arg9 (c : Dev nD) : W2 m ρ c (Proc.devRef .tc main_arg9) = arg m c main_arg9 :=
  (W2_of_ne m ρ c main_arg9 (by decide)).trans (w1_arg9 m ρ c)
theorem w2_arg10 (c : Dev nD) : W2 m ρ c (Proc.devRef .tc main_arg10) = arg m c main_arg10 :=
  (W2_of_ne m ρ c main_arg10 (by decide)).trans (w1_arg10 m ρ c)

/-! ## The second host stretch: the first mean, the first layer's weights and bias -/

/-- The second host stretch computes, from ANY contents, the mean of what `main_v14` holds along the edges `main_v1` →
    `main_v3` with the per-node factor `main_v11`. -/
theorem stretch1_mean (W : Valuation τ sig (Elt Ideal)) :
    StableHlo.after hostOps1 W (Proc.devRef .tc main_v27)
      = meanWith (W (Proc.devRef .tc main_v14)) (W (Proc.devRef .tc main_v1)) (W (Proc.devRef .tc main_v3))
          (W (Proc.devRef .tc main_v11)) := by
  dsimp only [hostOps1]
  after_results_simp
  all_goals rfl

/-- The projected features' mean over each node's in-neighbours. -/
theorem w3_v27 (c : Dev nD) : W3 m ρ c (Proc.devRef .tc main_v27)
    = meanMul (hidden0 (arg m c main_arg0) (arg m c main_arg2) (arg m c main_arg3)) (srcOf (arg m c main_arg1)) (dstOf (arg m c main_arg1)) := by
  rw [show W3 m ρ c (Proc.devRef .tc main_v27) = _ from stretch1_mean (W2 m ρ c), w2_v14, w2_v1, w2_v3, w2_v11]
  rfl
theorem w3_v28 (c : Dev nD) : W3 m ρ c (Proc.devRef .tc main_v28)
    = transpose S128x128 [1, 0] (arg m c main_arg4) transposes_S128x128_S128x128_1_0 := by
  have e : W3 m ρ c (Proc.devRef .tc main_v28)
      = transpose S128x128 [1, 0] (W2 m ρ c (Proc.devRef .tc main_arg4)) transposes_S128x128_S128x128_1_0 := by
    show StableHlo.after hostOps1 (W2 m ρ c) (Proc.devRef .tc main_v28) = _
    dsimp only [hostOps1]
    after_results
    all_goals rfl
  rw [e, w2_arg4]
theorem w3_v29 (c : Dev nD) : W3 m ρ c (Proc.devRef .tc main_v29)
    = shapeCast S1x128 (arg m c main_arg5) shapeCasts_S128_S1x128 := by
  have e : W3 m ρ c (Proc.devRef .tc main_v29)
      = shapeCast S1x128 (W2 m ρ c (Proc.devRef .tc main_arg5)) shapeCasts_S128_S1x128 := by
    show StableHlo.after hostOps1 (W2 m ρ c) (Proc.devRef .tc main_v29) = _
    dsimp only [hostOps1]
    after_results
    all_goals rfl
  rw [e, w2_arg5]
theorem w3_v30 (c : Dev nD) : W3 m ρ c (Proc.devRef .tc main_v30)
    = transpose S128x128 [1, 0] (arg m c main_arg6) transposes_S128x128_S128x128_1_0 := by
  have e : W3 m ρ c (Proc.devRef .tc main_v30)
      = transpose S128x128 [1, 0] (W2 m ρ c (Proc.devRef .tc main_arg6)) transposes_S128x128_S128x128_1_0 := by
    show StableHlo.after hostOps1 (W2 m ρ c) (Proc.devRef .tc main_v30) = _
    dsimp only [hostOps1]
    after_results
    all_goals rfl
  rw [e, w2_arg6]

/-- What the second stretch does not write. -/
theorem w3_v14 (c : Dev nD) : W3 m ρ c (Proc.devRef .tc main_v14)
    = hidden0 (arg m c main_arg0) (arg m c main_arg2) (arg m c main_arg3) := by
  refine Eq.trans ?_ (w2_v14 m ρ c)
  show StableHlo.after hostOps1 (W2 m ρ c) (Proc.devRef .tc main_v14) = W2 m ρ c (Proc.devRef .tc main_v14)
  kept_by hostOps1
theorem w3_v1 (c : Dev nD) : W3 m ρ c (Proc.devRef .tc main_v1) = srcOf (arg m c main_arg1) := by
  refine Eq.trans ?_ (w2_v1 m ρ c)
  show StableHlo.after hostOps1 (W2 m ρ c) (Proc.devRef .tc main_v1) = W2 m ρ c (Proc.devRef .tc main_v1)
  kept_by hostOps1
theorem w3_v3 (c : Dev nD) : W3 m ρ c (Proc.devRef .tc main_v3) = dstOf (arg m c main_arg1) := by
  refine Eq.trans ?_ (w2_v3 m ρ c)
  show StableHlo.after hostOps1 (W2 m ρ c) (Proc.devRef .tc main_v3) = W2 m ρ c (Proc.devRef .tc main_v3)
  kept_by hostOps1
theorem w3_v11 (c : Dev nD) : W3 m ρ c (Proc.devRef .tc main_v11) = degInv (dstOf (arg m c main_arg1)) := by
  refine Eq.trans ?_ (w2_v11 m ρ c)
  show StableHlo.after hostOps1 (W2 m ρ c) (Proc.devRef .tc main_v11) = W2 m ρ c (Proc.devRef .tc main_v11)
  kept_by hostOps1
theorem w3_arg7 (c : Dev nD) : W3 m ρ c (Proc.devRef .tc main_arg7) = arg m c main_arg7 := by
  refine Eq.trans ?_ (w2_arg7 m ρ c)
  show StableHlo.after hostOps1 (W2 m ρ c) (Proc.devRef .tc main_arg7) = W2 m ρ c (Proc.devRef .tc main_arg7)
  kept_by hostOps1
theorem w3_arg8 (c : Dev nD) : W3 m ρ c (Proc.devRef .tc main_arg8) = arg m c main_arg8 := by
  refine Eq.trans ?_ (w2_arg8 m ρ c)
  show StableHlo.after hostOps1 (W2 m ρ c) (Proc.devRef .tc main_arg8) = W2 m ρ c (Proc.devRef .tc main_arg8)
  kept_by hostOps1
theorem w3_arg9 (c : Dev nD) : W3 m ρ c (Proc.devRef .tc main_arg9) = arg m c main_arg9 := by
  refine Eq.trans ?_ (w2_arg9 m ρ c)
  show StableHlo.after hostOps1 (W2 m ρ c) (Proc.devRef .tc main_arg9) = W2 m ρ c (Proc.devRef .tc main_arg9)
  kept_by hostOps1
theorem w3_arg10 (c : Dev nD) : W3 m ρ c (Proc.devRef .tc main_arg10) = arg m c main_arg10 := by
  refine Eq.trans ?_ (w2_arg10 m ρ c)
  show StableHlo.after hostOps1 (W2 m ρ c) (Proc.devRef .tc main_arg10) = W2 m ρ c (Proc.devRef .tc main_arg10)
  kept_by hostOps1

/-! ## Region 1: the first layer -/

/-- The projected features, by name. -/
abbrev h0 (c : Dev nD) : Feat := hidden0 (arg m c main_arg0) (arg m c main_arg2) (arg m c main_arg3)

/-- The first layer's output. -/
abbrev h1 (c : Dev nD) : Feat := layer (h0 m c) (arg m c main_arg1) (arg m c main_arg4) (arg m c main_arg5) (arg m c main_arg6)

/-- The clamped second layer's output. -/
abbrev h2 (c : Dev nD) : Feat := layerClamp (h1 m c) (arg m c main_arg1) (arg m c main_arg7) (arg m c main_arg8) (arg m c main_arg9)

theorem w4_v31 (c : Dev nD) : W4 m ρ c (Proc.devRef .tc main_v31) = h1 m c := by
  refine ((W4_arr m ρ c 5).trans (Region1.value (V3 m ρ) c)).trans ?_
  show combine (W3 m ρ c (Proc.devRef .tc main_v27)) (W3 m ρ c (Proc.devRef .tc main_v14)) (W3 m ρ c (Proc.devRef .tc main_v28))
      (W3 m ρ c (Proc.devRef .tc main_v29)) (W3 m ρ c (Proc.devRef .tc main_v30)) = _
  rw [w3_v27, w3_v14, w3_v28, w3_v29, w3_v30]
  rfl

theorem w4_v1 (c : Dev nD) : W4 m ρ c (Proc.devRef .tc main_v1) = srcOf (arg m c main_arg1) :=
  (W4_of_ne m ρ c main_v1 (by decide)).trans (w3_v1 m ρ c)
theorem w4_v3 (c : Dev nD) : W4 m ρ c (Proc.devRef .tc main_v3) = dstOf (arg m c main_arg1) :=
  (W4_of_ne m ρ c main_v3 (by decide)).trans (w3_v3 m ρ c)
theorem w4_v11 (c : Dev nD) : W4 m ρ c (Proc.devRef .tc main_v11) = degInv (dstOf (arg m c main_arg1)) :=
  (W4_of_ne m ρ c main_v11 (by decide)).trans (w3_v11 m ρ c)
theorem w4_arg7 (c : Dev nD) : W4 m ρ c (Proc.devRef .tc main_arg7) = arg m c main_arg7 :=
  (W4_of_ne m ρ c main_arg7 (by decide)).trans (w3_arg7 m ρ c)
theorem w4_arg8 (c : Dev nD) : W4 m ρ c (Proc.devRef .tc main_arg8) = arg m c main_arg8 :=
  (W4_of_ne m ρ c main_arg8 (by decide)).trans (w3_arg8 m ρ c)
theorem w4_arg9 (c : Dev nD) : W4 m ρ c (Proc.devRef .tc main_arg9) = arg m c main_arg9 :=
  (W4_of_ne m ρ c main_arg9 (by decide)).trans (w3_arg9 m ρ c)
theorem w4_arg10 (c : Dev nD) : W4 m ρ c (Proc.devRef .tc main_arg10) = arg m c main_arg10 :=
  (W4_of_ne m ρ c main_arg10 (by decide)).trans (w3_arg10 m ρ c)

/-! ## The third host stretch: the second mean, the second layer's weights and bias -/

/-- The third host stretch computes, from ANY contents, the mean of what `main_v31` holds, likewise. -/
theorem stretch2_mean (W : Valuation τ sig (Elt Ideal)) :
    StableHlo.after hostOps2 W (Proc.devRef .tc main_v44)
      = meanWith (W (Proc.devRef .tc main_v31)) (W (Proc.devRef .tc main_v1)) (W (Proc.devRef .tc main_v3))
          (W (Proc.devRef .tc main_v11)) := by
  dsimp only [hostOps2]
  after_results_simp
  all_goals rfl

theorem w5_v44 (c : Dev nD) : W5 m ρ c (Proc.devRef .tc main_v44)
    = meanMul (h1 m c) (srcOf (arg m c main_arg1)) (dstOf (arg m c main_arg1)) := by
  rw [show W5 m ρ c (Proc.devRef .tc main_v44) = _ from stretch2_mean (W4 m ρ c), w4_v31, w4_v1, w4_v3, w4_v11]
  rfl
theorem w5_v45 (c : Dev nD) : W5 m ρ c (Proc.devRef .tc main_v45)
    = transpose S128x128 [1, 0] (arg m c main_arg7) transposes_S128x128_S128x128_1_0 := by
  have e : W5 m ρ c (Proc.devRef .tc main_v45)
      = transpose S128x128 [1, 0] (W4 m ρ c (Proc.devRef .tc main_arg7)) transposes_S128x128_S128x128_1_0 := by
    show StableHlo.after hostOps2 (W4 m ρ c) (Proc.devRef .tc main_v45) = _
    dsimp only [hostOps2]
    after_results
    all_goals rfl
  rw [e, w4_arg7]
theorem w5_v46 (c : Dev nD) : W5 m ρ c (Proc.devRef .tc main_v46)
    = shapeCast S1x128 (arg m c main_arg8) shapeCasts_S128_S1x128 := by
  have e : W5 m ρ c (Proc.devRef .tc main_v46)
      = shapeCast S1x128 (W4 m ρ c (Proc.devRef .tc main_arg8)) shapeCasts_S128_S1x128 := by
    show StableHlo.after hostOps2 (W4 m ρ c) (Proc.devRef .tc main_v46) = _
    dsimp only [hostOps2]
    after_results
    all_goals rfl
  rw [e, w4_arg8]
theorem w5_v47 (c : Dev nD) : W5 m ρ c (Proc.devRef .tc main_v47)
    = transpose S128x128 [1, 0] (arg m c main_arg9) transposes_S128x128_S128x128_1_0 := by
  have e : W5 m ρ c (Proc.devRef .tc main_v47)
      = transpose S128x128 [1, 0] (W4 m ρ c (Proc.devRef .tc main_arg9)) transposes_S128x128_S128x128_1_0 := by
    show StableHlo.after hostOps2 (W4 m ρ c) (Proc.devRef .tc main_v47) = _
    dsimp only [hostOps2]
    after_results
    all_goals rfl
  rw [e, w4_arg9]
theorem w5_v31 (c : Dev nD) : W5 m ρ c (Proc.devRef .tc main_v31) = h1 m c := by
  refine Eq.trans ?_ (w4_v31 m ρ c)
  show StableHlo.after hostOps2 (W4 m ρ c) (Proc.devRef .tc main_v31) = W4 m ρ c (Proc.devRef .tc main_v31)
  kept_by hostOps2
theorem w5_arg10 (c : Dev nD) : W5 m ρ c (Proc.devRef .tc main_arg10) = arg m c main_arg10 := by
  refine Eq.trans ?_ (w4_arg10 m ρ c)
  show StableHlo.after hostOps2 (W4 m ρ c) (Proc.devRef .tc main_arg10) = W4 m ρ c (Proc.devRef .tc main_arg10)
  kept_by hostOps2

/-! ## Region 2: the clamped second layer -/

theorem w6_v48 (c : Dev nD) : W6 m ρ c (Proc.devRef .tc main_v48) = h2 m c := by
  refine ((W6_arr m ρ c 5).trans (Region2.value (V5 m ρ) c)).trans ?_
  show combineClamp (W5 m ρ c (Proc.devRef .tc main_v44)) (W5 m ρ c (Proc.devRef .tc main_v31)) (W5 m ρ c (Proc.devRef .tc main_v45))
      (W5 m ρ c (Proc.devRef .tc main_v46)) (W5 m ρ c (Proc.devRef .tc main_v47)) = _
  rw [w5_v44, w5_v31, w5_v45, w5_v46, w5_v47]
  rfl
theorem w6_arg10 (c : Dev nD) : W6 m ρ c (Proc.devRef .tc main_arg10) = arg m c main_arg10 :=
  (W6_of_ne m ρ c main_arg10 (by decide)).trans (w5_arg10 m ρ c)

/-! ## The last host stretch and region 3: the classifier -/

theorem w7_v49 (c : Dev nD) : W7 m ρ c (Proc.devRef .tc main_v49)
    = transpose S128x64 [1, 0] (arg m c main_arg10) transposes_S64x128_S128x64_1_0 := by
  have e : W7 m ρ c (Proc.devRef .tc main_v49)
      = transpose S128x64 [1, 0] (W6 m ρ c (Proc.devRef .tc main_arg10)) transposes_S64x128_S128x64_1_0 := by
    show StableHlo.after hostOps3 (W6 m ρ c) (Proc.devRef .tc main_v49) = _
    dsimp only [hostOps3]
    after_results
    all_goals rfl
  rw [e, w6_arg10]
theorem w7_v48 (c : Dev nD) : W7 m ρ c (Proc.devRef .tc main_v48) = h2 m c := by
  refine Eq.trans ?_ (w6_v48 m ρ c)
  show StableHlo.after hostOps3 (W6 m ρ c) (Proc.devRef .tc main_v48) = W6 m ρ c (Proc.devRef .tc main_v48)
  kept_by hostOps3

/-- THE RESULT ARRAY at the last segment boundary is the network of the eleven arguments. -/
theorem result (c : Dev nD) : W8 m ρ c (Proc.devRef .tc main_v50)
    = net (arg m c main_arg0) (arg m c main_arg1) (arg m c main_arg2) (arg m c main_arg3) (arg m c main_arg4) (arg m c main_arg5)
        (arg m c main_arg6) (arg m c main_arg7) (arg m c main_arg8) (arg m c main_arg9) (arg m c main_arg10) := by
  refine ((W8_arr m ρ c 2).trans (Region3.value (V7 m ρ) c)).trans ?_
  show classify (W7 m ρ c (Proc.devRef .tc main_v48)) (W7 m ρ c (Proc.devRef .tc main_v49)) = _
  rw [w7_v48, w7_v49]
  rfl

/-- THE RUN, READ: every weakly fair execution of the kernel's program terminates, nothing faulting, with the result
    array at the network of the arguments and the arguments as launched. -/
theorem run : θ_run defs (onTc (τ := τ) (main (F := Ideal))) ⟨m, fun _ => 0, ρ⟩ (fun r => ∀ c : Dev nD,
      r.2.mem ((c.tc : Thread nD τ).loc main_v50)
        = net (arg m c main_arg0) (arg m c main_arg1) (arg m c main_arg2) (arg m c main_arg3) (arg m c main_arg4) (arg m c main_arg5)
            (arg m c main_arg6) (arg m c main_arg7) (arg m c main_arg8) (arg m c main_arg9) (arg m c main_arg10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result m ρ c), (h c).2⟩) (Cert.KernelIdeal.GenRun.run_result m ρ)

end Cert.KernelIdeal.Net

end
-- ==== Proof.HostStages.lean ====
/-
  The four dense stages as a host program spells them, read as the whole-array functions of `Spec`.

  A host stage is a `dot_general` (rows by columns, no accumulator), a bias VECTOR laid along axis 1 of a one-row array
  and that row down all rows, and, for a clamped stage, the maximum with a broadcast zero. Entry (r, j) of the
  product is `∑ k, a (r, k) · w (k, j)`; the bias entry is `b j`, which is also what the one-row reshape of `b` holds at
  (0, j). A combine stage adds the bias BETWEEN its two products where `Spec.combine` adds it last: the same sum,
  addition of extended reals being commutative and associative.
-/
import proofs.«129019_j63771674411489_1_alg».proof.Proof.LibDense
import proofs.«129019_j63771674411489_1_alg».proof.Proof.Spec
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.HostStages

open Idealize.ShloMosaic Idealize.ShloMosaic.ValueIdx Cert.Spec

variable {M K N : ℕ}

/-- A bias vector laid along axis 1 of a one-row array, and that row down the rows, holds `b j` at (r, j). -/
theorem bias_apply (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (r : Fin M) (j : Fin N) :
    broadcastInDim ⟨2, ![M, N]⟩ ![0, 1] h2 (broadcastInDim ⟨2, ![1, N]⟩ ![1] h1 b) (ix2 r j) = b (ix1 j) := by
  rw [broadcastInDim_oneRow_apply h2 _ r j]
  exact broadcastInDim_apply ![1] h1 b (ix2 (0 : Fin 1) j) (ix1 j) (fun a => by
    match a with
    | ⟨0, _⟩ =>
      show j.val = if N = 1 then 0 else j.val
      split
      · have := j.isLt; omega
      · rfl)

/-- A broadcast zero is zero everywhere. -/
theorem zero_apply (h0 : (⟨0, ![]⟩ : Shape).BroadcastsInDim ⟨2, ![M, N]⟩ ![]) (i : (⟨2, ![M, N]⟩ : Shape).Idx) :
    broadcastInDim ⟨2, ![M, N]⟩ ![] h0 (constant (F := Ideal) ⟨0, ![]⟩ .f32 0x00000000#32) i = 0 := by
  rw [broadcastInDim_apply ![] h0 (constant (F := Ideal) ⟨0, ![]⟩ .f32 0x00000000#32) i (fun a => a.elim0) (fun a => a.elim0)]
  exact Ideal.ofBits_zero_f32

/-- The host's projection stage is `Spec.project` over the bias reshaped to one row. -/
theorem host_project (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (hsc : (⟨1, ![N]⟩ : Shape).ShapeCasts ⟨2, ![1, N]⟩) :
    maximumf (addf (Host.dotGeneral d prec x w)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = project x w (shapeCast ⟨2, ![1, N]⟩ b hsc) := by
  funext i
  obtain ⟨r, j, rfl⟩ : ∃ (r : Fin M) (j : Fin N), i = ix2 r j := ⟨i 0, i 1, eq_ix2 i⟩
  rw [project_apply, shapeCast_a_1a_apply]
  refine (Cert.LibDense.host_layer_apply d hd prec x w b h1 h2 h0 r j (fun k => x (ix2 r k)) (fun _ => rfl)).trans ?_
  rfl

/-- The host's combine stage is `Spec.combine` over the bias reshaped to one row. -/
theorem host_combine (d : DotDims ⟨2, ![M, K]⟩ ⟨2, ![K, N]⟩ ⟨2, ![M, N]⟩) (hd : d = DotDims.plain M K N)
    (prec : Option ContractPrecision) (mean h : FVec Ideal ⟨2, ![M, K]⟩ .f32) (wl wr : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (hsc : (⟨1, ![N]⟩ : Shape).ShapeCasts ⟨2, ![1, N]⟩) :
    addf (addf (Host.dotGeneral d prec mean wl)
          (broadcastInDim ⟨2, ![M, N]⟩ ![0, 1] h2 (broadcastInDim ⟨2, ![1, N]⟩ ![1] h1 b)))
        (Host.dotGeneral d prec h wr)
      = combine mean h wl (shapeCast ⟨2, ![1, N]⟩ b hsc) wr := by
  subst hd
  funext i
  obtain ⟨r, j, rfl⟩ : ∃ (r : Fin M) (j : Fin N), i = ix2 r j := ⟨i 0, i 1, eq_ix2 i⟩
  rw [combine_apply, shapeCast_a_1a_apply, addf_apply, addf_apply, bias_apply]
  show FloatOps.dotGeneral (DotDims.plain M K N) prec .single mean wl (ix2 r j) + b (ix1 j)
      + FloatOps.dotGeneral (DotDims.plain M K N) prec .single h wr (ix2 r j) = _
  rw [Cert.LibDense.dotGeneral_plain_apply, Cert.LibDense.dotGeneral_plain_apply]
  exact add_right_comm _ _ _

/-- The host's clamped combine stage is `Spec.combineClamp`. -/
theorem host_combineClamp (d : DotDims ⟨2, ![M, K]⟩ ⟨2, ![K, N]⟩ ⟨2, ![M, N]⟩) (hd : d = DotDims.plain M K N)
    (prec : Option ContractPrecision) (mean h : FVec Ideal ⟨2, ![M, K]⟩ .f32) (wl wr : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (hsc : (⟨1, ![N]⟩ : Shape).ShapeCasts ⟨2, ![1, N]⟩) :
    maximumf (addf (addf (Host.dotGeneral d prec mean wl)
            (broadcastInDim ⟨2, ![M, N]⟩ ![0, 1] h2 (broadcastInDim ⟨2, ![1, N]⟩ ![1] h1 b)))
          (Host.dotGeneral d prec h wr))
        (broadcastInDim ⟨2, ![M, N]⟩ ![] h0 (constant (F := Ideal) ⟨0, ![]⟩ .f32 0x00000000#32))
      = combineClamp mean h wl (shapeCast ⟨2, ![1, N]⟩ b hsc) wr := by
  funext i
  rw [maximumf_apply, zero_apply, host_combine d hd prec mean h wl wr b h1 h2 hsc]
  rfl

/-- The host's classifier stage is `Spec.classify`. -/
theorem host_classify (d : DotDims ⟨2, ![M, K]⟩ ⟨2, ![K, N]⟩ ⟨2, ![M, N]⟩) (hd : d = DotDims.plain M K N)
    (prec : Option ContractPrecision) (h : FVec Ideal ⟨2, ![M, K]⟩ .f32) (w : FVec Ideal ⟨2, ![K, N]⟩ .f32) :
    Host.dotGeneral d prec h w = classify h w := by
  subst hd
  funext i
  obtain ⟨r, j, rfl⟩ : ∃ (r : Fin M) (j : Fin N), i = ix2 r j := ⟨i 0, i 1, eq_ix2 i⟩
  show FloatOps.dotGeneral (DotDims.plain M K N) prec .single h w (ix2 r j) = _
  rw [Cert.LibDense.dotGeneral_plain_apply]
  rfl

end Cert.HostStages

end
-- ==== Proof.RefValue.lean ====
/-
  The reference program's result, read: it is the network `Glue.net` of its eleven arguments.

  The reference is one straight line of host operations, read one operation at a time. Stage by stage:
    its input projection (a `dot_general`, the bias laid along the rows, a maximum with zero) is `Spec.project`;
    each neighbour mean — the gather by source, the scatter-add by destination, the quotient by the clamped
      in-degree — is the SAME chain of host operations the kernel's program applies, so it is `Glue.meanDiv` of the
      stage's input by unfolding alone, and `Glue.meanDiv` is `Glue.meanMul` (the reciprocal law);
    each layer adds the bias between its two products where `Spec.combine` adds it last (the same sum);
    the classifier is a bare product.
-/
import proofs.«129019_j63771674411489_1_alg».proof.Defs
import proofs.«129019_j63771674411489_1_alg».proof.Proof.Gen.ReferenceIdeal.Read
import proofs.«129019_j63771674411489_1_alg».proof.Proof.Glue
import proofs.«129019_j63771674411489_1_alg».proof.Proof.HostStages

set_option maxRecDepth 16384

noncomputable section

namespace Cert.RefValue

open Cert.ReferenceIdeal Cert.ReferenceIdeal.Gen Cert.ReferenceIdeal.Read Idealize.ShloMosaic

variable (x0 : (⟨S10000x256, .f32⟩ : BufTy).Contents (Elt Ideal)) (x1 : (⟨S2x640000, .i32⟩ : BufTy).Contents (Elt Ideal))
  (x2 : (⟨S128x256, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 x7 : (⟨S128x128, .f32⟩ : BufTy).Contents (Elt Ideal)) (x8 : (⟨S128, .f32⟩ : BufTy).Contents (Elt Ideal))
  (x9 : (⟨S128x128, .f32⟩ : BufTy).Contents (Elt Ideal)) (x10 : (⟨S64x128, .f32⟩ : BufTy).Contents (Elt Ideal))

/-- The reference's projected features are the network's. -/
theorem projected : val_main_v9 (F := Ideal) x0 x2 x3 = Cert.KernelIdeal.Glue.hidden0 x0 x2 x3 := by
  unfold val_main_v9 val_main_v8 val_main_v5 val_main_v7 val_main_v6 val_main_call0_v0 val_main_call0_cst val_main_v4
    Cert.KernelIdeal.Glue.hidden0
  exact Cert.HostStages.host_project _ rfl none x0 _ x3 _ _ _ _

/-- The reference's first mean is the aggregate of the projected features divided by the clamped in-degree: the same
    host operations, one after the other. -/
theorem mean1 : val_main_v28 (F := Ideal) x0 x1 x2 x3
    = Cert.KernelIdeal.Glue.meanDiv (val_main_v9 (F := Ideal) x0 x2 x3) (Cert.KernelIdeal.Glue.srcOf x1) (Cert.KernelIdeal.Glue.dstOf x1) := by
  unfold val_main_v28 val_main_v19 val_main_v27 val_main_v26 val_main_v25 val_main_v24 val_main_v23 val_main_v22 val_main_v21
    val_main_v20 val_main_v18 val_main_v17 val_main_v16 val_main_v15 val_main_v14 val_main_v13 val_main_v12 val_main_v11
    val_main_v10 val_main_v3 val_main_v2 val_main_v1 val_main_v0 val_main_cst val_main_cst_1 val_main_cst_2 val_main_cst_3
    val_main_c val_main_c_0
  unfold Cert.KernelIdeal.Glue.meanDiv Cert.KernelIdeal.Glue.aggregate Cert.KernelIdeal.Glue.spread
    Cert.KernelIdeal.Glue.degClamped Cert.KernelIdeal.Glue.ones Cert.KernelIdeal.Glue.srcOf Cert.KernelIdeal.Glue.dstOf
  rfl

/-- The reference's first layer is the network's first layer of the projected features. -/
theorem layer1 : val_main_v36 (F := Ideal) x0 x1 x2 x3 x4 x5 x6
    = Cert.KernelIdeal.Glue.layer (val_main_v9 (F := Ideal) x0 x2 x3) x1 x4 x5 x6 := by
  unfold Cert.KernelIdeal.Glue.layer
  rw [Cert.KernelIdeal.Glue.meanMul_eq_meanDiv, ← mean1 x0 x1 x2 x3]
  unfold val_main_v36 val_main_v33 val_main_v30 val_main_v32 val_main_v31 val_main_v35 val_main_v29 val_main_v34
  exact Cert.HostStages.host_combine _ rfl none _ _ _ _ x5 _ _ _

/-- The reference's second mean, over the first layer's output. -/
theorem mean2 : val_main_v55 (F := Ideal) x0 x1 x2 x3 x4 x5 x6
    = Cert.KernelIdeal.Glue.meanDiv (val_main_v36 (F := Ideal) x0 x1 x2 x3 x4 x5 x6) (Cert.KernelIdeal.Glue.srcOf x1)
        (Cert.KernelIdeal.Glue.dstOf x1) := by
  unfold val_main_v55 val_main_v46 val_main_v54 val_main_v53 val_main_v52 val_main_v51 val_main_v50 val_main_v49 val_main_v48
    val_main_v47 val_main_v45 val_main_v44 val_main_v43 val_main_v42 val_main_v41 val_main_v40 val_main_v39 val_main_v38
    val_main_v37 val_main_v3 val_main_v2 val_main_v1 val_main_v0 val_main_cst_6 val_main_cst_7 val_main_cst_8 val_main_cst_9
    val_main_c_4 val_main_c_5
  unfold Cert.KernelIdeal.Glue.meanDiv Cert.KernelIdeal.Glue.aggregate Cert.KernelIdeal.Glue.spread
    Cert.KernelIdeal.Glue.degClamped Cert.KernelIdeal.Glue.ones Cert.KernelIdeal.Glue.srcOf Cert.KernelIdeal.Glue.dstOf
  rfl

/-- The reference's clamped second layer is the network's. -/
theorem layer2 : val_main_v64 (F := Ideal) x0 x1 x2 x3 x4 x5 x6 x7 x8 x9
    = Cert.KernelIdeal.Glue.layerClamp (val_main_v36 (F := Ideal) x0 x1 x2 x3 x4 x5 x6) x1 x7 x8 x9 := by
  unfold Cert.KernelIdeal.Glue.layerClamp
  rw [Cert.KernelIdeal.Glue.meanMul_eq_meanDiv, ← mean2 x0 x1 x2 x3 x4 x5 x6]
  unfold val_main_v64 val_main_v63 val_main_v60 val_main_v57 val_main_v59 val_main_v58 val_main_v62 val_main_v56 val_main_v61
    val_main_call1_v0 val_main_call1_cst
  exact Cert.HostStages.host_combineClamp _ rfl none _ _ _ _ x8 _ _ _ _

/-- THE REFERENCE'S RESULT is the network of its eleven arguments. -/
theorem result : val_main_v66 (F := Ideal) x0 x1 x2 x3 x4 x5 x6 x7 x8 x9 x10
    = Cert.KernelIdeal.Glue.net x0 x1 x2 x3 x4 x5 x6 x7 x8 x9 x10 := by
  unfold Cert.KernelIdeal.Glue.net
  rw [← projected x0 x2 x3, ← layer1 x0 x1 x2 x3 x4 x5 x6, ← layer2 x0 x1 x2 x3 x4 x5 x6 x7 x8 x9]
  unfold val_main_v66 val_main_v65
  exact Cert.HostStages.host_classify _ rfl none _ _

end Cert.RefValue

end
-- ==== Proof.lean ====
/-
  A two-layer mean-aggregation graph network (input projection, two SAGE-style layers, a classifier) computed by four
  row-tiled kernels with the graph gather / scatter-add left to the host, against its plain reference: the two
  programs are equal over the extended reals.

  Both programs compute ONE function of their eleven arguments, `Glue.net`:
    h₀ = max (x · W_linᵀ + b_lin) 0,
    h₁ = mean(h₀) · W_l1ᵀ + h₀ · W_r1ᵀ + b_l1,
    h₂ = max (mean(h₁) · W_l2ᵀ + h₁ · W_r2ᵀ + b_l2) 0,
    out = h₂ · W_clsᵀ,
  where mean(h) scatter-adds each edge's source row of h at the edge's destination and scales row i by the clamped
  in-degree `max deg_i 1`. The kernel's program stores `1 / max deg 1` once and MULTIPLIES by it; the reference DIVIDES by
  `max deg 1`. The divisor is at least one, so it is not zero, and on the extended reals a quotient by a non-zero
  divisor is the product with its inverse: the two means are one array, whatever the aggregate holds (no finiteness is
  used). The kernel adds the bias after both products, the reference between them: the same sum. The kernel's changes of
  float format are the identity on the extended reals, and a matrix product accumulated into zeros, tile by tile over
  ten row blocks, is the reference's whole product read row by row.

  The kernel side (KernelValue): the run of the four regions and the host stretches between them leaves the result at
  `Glue.net` of the arguments. The reference side (RefValue): its straight-line run does too. The ideal pass rewrote
  nothing, so the preservation claim is empty.
-/
import proofs.«129019_j63771674411489_1_alg».proof.Defs
import proofs.«129019_j63771674411489_1_alg».proof.Proof.Gen.Kernel
import proofs.«129019_j63771674411489_1_alg».proof.Proof.Gen.KernelIdeal
import proofs.«129019_j63771674411489_1_alg».proof.Proof.Gen.ReferenceIdeal
import proofs.«129019_j63771674411489_1_alg».proof.Proof.Gen.Pre_finite_inputs
import proofs.«129019_j63771674411489_1_alg».proof.Proof.Gen.ReferenceIdeal.Run
import proofs.«129019_j63771674411489_1_alg».proof.Proof.KernelFrame
import proofs.«129019_j63771674411489_1_alg».proof.Proof.KernelIdealFrame
import proofs.«129019_j63771674411489_1_alg».proof.Proof.KernelValue
import proofs.«129019_j63771674411489_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the network of those arguments. -/
theorem algebraic : Cert.algebraic_KernelIdeal_ReferenceIdeal := by
  intro m ρ m' ρ' _ hagree
  refine ⟨_, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v66_eq, Cert.RefValue.result]
  obtain ⟨e0, e1, e2, e3, e4, e5, e6, e7, e8, e9, e10⟩ := hagree c
  rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
